-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S8192x1 : Shape := ⟨2, ![8192, 1]⟩
abbrev S256x4096 : Shape := ⟨2, ![256, 4096]⟩
abbrev S256x1 : Shape := ⟨2, ![256, 1]⟩
abbrev S256 : Shape := ⟨1, ![256]⟩
abbrev S_ : Shape := ⟨0, ![]⟩
abbrev S1x1 : Shape := ⟨2, ![1, 1]⟩
abbrev S512x4096 : Shape := ⟨2, ![512, 4096]⟩
abbrev S512x1 : Shape := ⟨2, ![512, 1]⟩
abbrev S512x256 : Shape := ⟨2, ![512, 256]⟩

abbrev nBuf : Space → Nat
  | .hbm => 16
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8192x4096, .f32⟩
  | .hbm, ⟨3, _⟩ => ⟨S8192x4096, .bf16⟩
  | .hbm, ⟨4, _⟩ => ⟨S8192x1, .f32⟩
  | .hbm, ⟨5, _⟩ => ⟨S4096x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S8192x4096, .f32⟩
  | .hbm, ⟨15, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x1, .f32⟩
  | .local _ .vmem, ⟨5, _⟩ => ⟨S256x1, .f32⟩
  | .local _ .vmem, ⟨6, _⟩ => ⟨S512x4096, .bf16⟩
  | .local _ .vmem, ⟨7, _⟩ => ⟨S512x4096, .bf16⟩
  | .local _ .vmem, ⟨8, _⟩ => ⟨S256x4096, .f32⟩
  | .local _ .vmem, ⟨9, _⟩ => ⟨S256x4096, .f32⟩
  | .local _ .vmem, ⟨10, _⟩ => ⟨S512x1, .f32⟩
  | .local _ .vmem, ⟨11, _⟩ => ⟨S512x1, .f32⟩
  | .local _ .vmem, ⟨12, _⟩ => ⟨S1x1, .f32⟩
  | .local _ .vmem, ⟨13, _⟩ => ⟨S512x256, .f32⟩
  | .local _ .vmem, ⟨14, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S256x1_S256x1_0_0 : ∀ a, (![0, 0] : Fin 2 → Nat) a + S256x1.size a ≤ S256x1.size a
  h_S256x1 : 0 < S256x1.numel
  reducesTo_S4096x4096_S_d0_1 : S4096x4096.ReducesTo [0, 1] S_
  h_S_ : 0 < S_.numel
  shapeCasts_S_S1x1 : S_.ShapeCasts S1x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  inb_S512x256_S512x256_0_0 : ∀ a, (![0, 0] : Fin 2 → Nat) a + S512x256.size a ≤ S512x256.size a
  h_S512x256 : 0 < S512x256.numel
  shapeCasts_S8192x4096_S4x2048x4096 : S8192x4096.ShapeCasts S4x2048x4096
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .bf16 = 32 ∨ (Rect.block (s := S8192x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .bf16 = 32 ∨ (Rect.block (s := S8192x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .f32 = 32 ∨ (Rect.block (s := S4096x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S8192x4096.size a
  hwx1_4 : ∀ i : grid1.Coords, EltTy.bits .f32 = 32 ∨ (Rect.block (s := S8192x4096) S512x256.size (cc1_transform_4 i) (hinb1_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S256x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1_0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4x2048x4096, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x2048x4096, .f32⟩
  | .hbm, ⟨20, _⟩ => ⟨S4x2048x4096, .f32⟩
  | .hbm, ⟨21, _⟩ => ⟨S_, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4096x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4x2048x4096, .f32⟩
  | .hbm, ⟨48, _⟩ => ⟨S4x2048x4096, .f32⟩
  | .hbm, ⟨49, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_cst_6 : Ref sig .tc := ⟨.hbm, 31, rfl⟩
abbrev main_call3_v0 : Ref sig .tc := ⟨.hbm, 32, rfl⟩
abbrev main_v15 : Ref sig .tc := ⟨.hbm, 33, rfl⟩
abbrev main_cst_7 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_8 : Ref sig .tc := ⟨.hbm, 39, rfl⟩
abbrev main_cst_9 : Ref sig .tc := ⟨.hbm, 40, rfl⟩
abbrev main_call5_v0 : Ref sig .tc := ⟨.hbm, 41, rfl⟩
abbrev main_call5_v1 : Ref sig .tc := ⟨.hbm, 42, rfl⟩
abbrev main_call5_v2 : Ref sig .tc := ⟨.hbm, 43, rfl⟩
abbrev main_call5_v3 : Ref sig .tc := ⟨.hbm, 44, rfl⟩
abbrev main_call5_v4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩

abbrev nD : Nat := 1
abbrev τ : Topo := Topo.v7x

variable {F : FTy → Type} [FloatOps F]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  reducesTo_S4096x4096_S_d0_1 : S4096x4096.ReducesTo [0, 1] S_
  bcast_S_S4096x4096 : S_.BroadcastsInDim S4096x4096 (![] : Fin 0 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics of a ternary-weight linear layer with per-token 8-bit activation quantisation, over the
  extended reals.

  For a token row `x` (4096 entries) let `a = max ε (max_j |x_j|)` be its clipped amplitude; the row is quantised to
  `q_j = clip (round (x_j · (127 / a))) (-128) 127` and carries the inverse scale `a / 127`. For the weight matrix `W`
  let `μ = max ε ((0 + Σ |W|) / 2²⁴)` be its clipped mean magnitude; the weights are made ternary,
  `t = clip (round (W / μ)) (-1) 1`. The layer's output at (token, o) is
  `((Σ_k q_k · t_{o,k}) · (a / 127)) · μ`.

  The same number is reached by dequantising first: `(Σ_k (q_k / (127 / a)) · t'_{o,k}) / (1 / μ)` with
  `t' = clip (round (W · (1 / μ))) (-1) 1`. The two agree whenever `a` and `μ` are positive reals, which they are as
  soon as every entry of `x` and `W` is a real number; `q` and `t` are reals in any case, being clipped.

  Everything here is stated over literal shapes and explicit coordinates; no program is imported.
-/
import Idealize.ShloMosaic.PureOps.Ideal
import Idealize.ShloMosaic.Lib.ValueIdx

noncomputable section

namespace Cert.TernaryLinear

open Idealize.ShloMosaic Idealize.ShloMosaic.ValueIdx

/-- Activations with the tokens flattened: one token per row. -/
abbrev Rows : Shape := ⟨2, ![8192, 4096]⟩
/-- One number per token, kept as a column. -/
abbrev RowCol : Shape := ⟨2, ![8192, 1]⟩
/-- The weight matrix, [out, in]. -/
abbrev Wt : Shape := ⟨2, ![4096, 4096]⟩
/-- A single cell. -/
abbrev Cell : Shape := ⟨2, ![1, 1]⟩
/-- Activations as [batch, sequence, feature]. -/
abbrev Tok : Shape := ⟨3, ![4, 2048, 4096]⟩

/-- The clipping floor ε (the f32 nearest 1e-5). -/
abbrev eps : EReal := Ideal.ofBits .f32 0x3727C5AC#32
/-- 127, the largest quantised value. -/
abbrev qmax : EReal := Ideal.ofBits .f32 0x42FE0000#32
/-- -128, the smallest quantised value. -/
abbrev qmin : EReal := Ideal.ofBits .f32 0xC3000000#32
/-- 1 and -1, the ternary bounds. -/
abbrev pone : EReal := Ideal.ofBits .f32 0x3F800000#32
abbrev mone : EReal := Ideal.ofBits .f32 0xBF800000#32
/-- 2²⁴, the number of weights. -/
abbrev count : EReal := Ideal.ofBits .f32 0x4B800000#32
/-- -∞, where a running maximum starts. -/
abbrev ninf : EReal := Ideal.ofBits .f32 0xFF800000#32
/-- 0, where a running sum starts. -/
abbrev fzero : EReal := Ideal.ofBits .f32 0x00000000#32

/-- Rounding to the nearest integer, ties to even; the infinities fixed. -/
def rnd (a : EReal) : EReal := Ideal.liftRound Ideal.roundHalfEven a
/-- The magnitude of an extended real. -/
def absE (a : EReal) : EReal := max a (-a)

/-! ## Tokens as rows -/

/-- The clipped amplitude of row `r`: `max ε (max_j |X r j|)`. -/
def rowAmp (X : Rows.Idx → EReal) (r : Fin 8192) : EReal :=
  max eps ((Finset.univ : Finset (Fin 4096)).fold max ninf (fun j => absE (X (ix2 r j))))

/-- The quantised activations: `clip (round (X · (127 / a_r))) (-128) 127`. -/
def quantRow (X : Rows.Idx → EReal) : Rows.Idx → EReal :=
  fun i => min qmax (max qmin (rnd (X i * Ideal.div qmax (rowAmp X (i 0)))))

/-- The inverse scales `a_r / 127`, one per row. -/
def invScaleCol (X : Rows.Idx → EReal) : RowCol.Idx → EReal :=
  fun i => Ideal.div (rowAmp X (i 0)) qmax

/-! ## The weights -/

/-- The clipped mean magnitude of the weights: `max ε ((0 + Σ |W|) / 2²⁴)`. -/
def meanAbs (W : Wt.Idx → EReal) : EReal :=
  max eps (Ideal.div (fzero + ∑ i : Wt.Idx, absE (W i)) count)

/-- The weights made ternary by dividing by `μ`: `clip (round (W / μ)) (-1) 1`. -/
def ternDiv (W : Wt.Idx → EReal) (μ : EReal) : Wt.Idx → EReal :=
  fun i => min pone (max mone (rnd (Ideal.div (W i) μ)))

/-- The weights made ternary by multiplying with `1 / μ`: `clip (round (W · (1 / μ))) (-1) 1`. -/
def ternMul (W : Wt.Idx → EReal) (μ : EReal) : Wt.Idx → EReal :=
  fun i => min pone (max mone (rnd (W i * Ideal.div pone μ)))

/-! ## The product, scaled after the sum -/

/-- A block-free description of the scaled matrix product as a function of its four operands: quantised rows `Q`,
    weights `W`, a column of inverse scales `S` and the cell `M` holding `μ`:
    `((Σ_k Q r k · tern (W / μ) o k) · S r) · μ`. -/
def scaledProduct (Q : Rows.Idx → EReal) (W : Wt.Idx → EReal) (S : RowCol.Idx → EReal) (M : Cell.Idx → EReal) :
    Rows.Idx → EReal :=
  fun i => ((∑ k : Fin 4096, Q (ix2 (i 0) k) * ternDiv W (M (ix2 0 0)) (ix2 (i 1) k)) * S (ix2 (i 0) 0)) * M (ix2 0 0)

/-! ## Tokens as [batch, sequence] -/

/-- The clipped amplitude of token (b, s). -/
def tokAmp (x : Tok.Idx → EReal) (b : Fin 4) (s : Fin 2048) : EReal :=
  max eps ((Finset.univ : Finset (Fin 4096)).fold max ninf (fun j => absE (x (ix3 b s j))))

/-- The quantised entry (b, s, j). -/
def tokQuant (x : Tok.Idx → EReal) (b : Fin 4) (s : Fin 2048) (j : Fin 4096) : EReal :=
  min qmax (max qmin (rnd (x (ix3 b s j) * Ideal.div qmax (tokAmp x b s))))

/-- THE RESULT, scaled after the sum: `((Σ_k q_k · t_{o,k}) · (a / 127)) · μ`. -/
def result (x : Tok.Idx → EReal) (W : Wt.Idx → EReal) : Tok.Idx → EReal :=
  fun i => ((∑ k : Fin 4096, tokQuant x (i 0) (i 1) k * ternDiv W (meanAbs W) (ix2 (i 2) k))
    * Ideal.div (tokAmp x (i 0) (i 1)) qmax) * meanAbs W

/-- THE RESULT, dequantised before the sum: `(Σ_k (q_k / (127 / a)) · t'_{o,k}) / (1 / μ)`. -/
def resultDequant (x : Tok.Idx → EReal) (W : Wt.Idx → EReal) : Tok.Idx → EReal :=
  fun i => Ideal.div
    (∑ k : Fin 4096, Ideal.div (tokQuant x (i 0) (i 1) k) (Ideal.div qmax (tokAmp x (i 0) (i 1)))
      * ternMul W (meanAbs W) (ix2 (i 2) k))
    (Ideal.div pone (meanAbs W))

end Cert.TernaryLinear

end
-- ==== Proof.Region0.lean ====
/-
  The quantising pass, read as values: after its 32 grid points the array of quantised activations holds
  `quantRow` of the rows it was given and the column of inverse scales holds `invScaleCol` of them — whatever the
  rows are. Each grid point handles 256 whole rows, so a row's maximum is taken inside one block.

  In order: the body's three values at an index of a block (the clipped row maximum as a column, the inverse scale,
  the quantised entry); the same against the whole array, for a block that holds 256 consecutive rows of it; what a
  grid point writes back to each output; the blocks tile each output, so each output ends as one function of the rows.
-/
import proofs.«100234_j24962349924854_1_alg».proof.Proof.Gen.KernelIdeal.Frame
import proofs.«100234_j24962349924854_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Quantise

open Idealize.ShloMosaic Idealize.ShloMosaic.TcCoe Idealize.ShloMosaic.ValueIdx Idealize.SL.Sem
open Cert.KernelIdeal Cert.KernelIdeal.Gen Cert.TernaryLinear
open Idealize.ShloMosaic.Pipeline (Dat)

variable (V : (c : Dev nD) → (b : Ref sig .tc) → Buf (Elt Ideal) ((c : Thread nD τ).loc b))

/-! ## Columns: a vector kept as a one-wide matrix -/

/-- A vector `[a]` cast to the column `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane maximum of a block, read at a row -/

/-- The lane reduction's inserted index: row `p` with lane `j` put back is `(p, j)`. -/
private theorem lift_row (h : S256x4096.Reduces [1] S256) (p : Fin 256) (j : Fin 4096) :
    h.lift (ix1 p) j = ix2 p j :=
  funext fun a => Fin.ext (match a with | ⟨0, _⟩ => rfl | ⟨1, _⟩ => rfl)

/-- The maximum over the lanes of a `[256, 4096]` block, at row `p`: the fold of `max` from `-∞` over that row. -/
theorem laneMax_apply (x : FVec Ideal S256x4096 .f32) (p : Fin 256) :
    multiReduction (F := Ideal) .maximumf [1] S256 x 0xFF800000#32 reduces_S256x4096_S256 (.inl rfl) rfl (ix1 p)
      = (Finset.univ : Finset (Fin 4096)).fold max ninf (fun j => x (ix2 p j)) := by
  refine (Ideal.multiReduction_maximumf_single x _ _ _ _ (ix1 p)).trans ?_
  refine congrArg (fun f => (Finset.univ : Finset (Fin 4096)).fold max ninf f) (funext fun j => ?_)
  exact congrArg x (lift_row _ p j)

/-! ## The body's arithmetic at an index of a block -/

/-- The clipped amplitude of row `p` of a block: `max ε (max_j |x p j|)`. -/
def blockAmp (x0 : Vec Ideal S256x4096 .f32) (p : Fin 256) : EReal :=
  max eps ((Finset.univ : Finset (Fin 4096)).fold max ninf (fun j => absE (x0 (ix2 p j))))

/-- The body's column of clipped row maxima holds, in row `p`, that row's clipped amplitude: the lane maximum of the
    magnitudes is the fold of `max` from `-∞` over the row, kept as a column and floored at `ε`. -/
theorem clippedMax_apply (x0 : Vec Ideal S256x4096 .f32) (p : Fin 256) (u : Fin 1) :
    k0_pay2 (F := Ideal) x0 (ix2 p u) = blockAmp x0 p := by
  unfold k0_pay2
  refine (maximumf_apply _ _ _).trans ?_
  show max eps _ = max eps _
  refine congrArg (max eps) ?_
  refine (shapeCast_a_a1_apply _ _ p u).trans ?_
  refine (laneMax_apply (absf (k0_pay1 x0)) p).trans ?_
  refine congrArg (fun f => (Finset.univ : Finset (Fin 4096)).fold max ninf f) (funext fun j => ?_)
  -- the magnitude |a| = max a (-a), of the block's entry (the identity cast read through)
  exact congrArg (fun a : EReal => max a (-a)) (congrFun (shapeCast_self x0 shapeCasts_S256x4096_S256x4096) (ix2 p j))

/-- The body's column of inverse scales holds, in row `p`, `a_p / 127`. -/
theorem invScale_apply (x0 : Vec Ideal S256x4096 .f32) (p : Fin 256) (u : Fin 1) :
    k0_pay3 (F := Ideal) x0 (ix2 p u) = Ideal.div (blockAmp x0 p) qmax := by
  unfold k0_pay3
  refine (divf_apply _ _ _).trans ?_
  exact congrArg (fun a => Ideal.div a qmax) (clippedMax_apply x0 p u)

/-- The body's quantised block holds, at `(p, j)`, `clip (round (x p j · (127 / a_p))) (-128) 127`: every operation
    but the scale is pointwise, and the scale is the column `127 / a` read at row `p`. -/
theorem quantised_apply (x0 : Vec Ideal S256x4096 .f32) (p : Fin 256) (j : Fin 4096) :
    k0_pay4 (F := Ideal) x0 (ix2 p j)
      = min qmax (max qmin (rnd (x0 (ix2 p j) * Ideal.div qmax (blockAmp x0 p)))) := by
  unfold k0_pay4
  refine (truncf_apply (φ := .f32) (ψ := .bf16) _ bitsLt_bf16_f32 (ix2 p j)).trans ?_
  refine (minimumf_apply _ _ _).trans ?_
  show min qmax _ = min qmax _
  refine congrArg (min qmax) ?_
  refine (maximumf_apply _ _ _).trans ?_
  show max qmin _ = max qmin _
  refine congrArg (max qmin) ?_
  show rnd _ = rnd _
  refine congrArg rnd ?_
  refine (mulf_apply _ _ _).trans ?_
  refine congrArg₂ (· * ·) (congrFun (shapeCast_self x0 shapeCasts_S256x4096_S256x4096) (ix2 p j)) ?_
  refine (broadcastTo_a1_ab_apply _ _ p j).trans ?_
  refine (divf_apply _ _ _).trans ?_
  exact congrArg (fun a => Ideal.div qmax a) (clippedMax_apply x0 p 0)

/-! ## A block against the whole array

Grid point `t` handles rows `256 t … 256 t + 255`, all 4096 lanes of each: a row's maximum is taken inside one block, so
the block's arithmetic at `(p, j)` is the whole array's at `(256 t + p, j)`. Stated over a block `x0` and an array `X` that
agree in this way, then used at the input window's block. -/

/-- A block holding rows `256 b …` of `X` has, in its row `p`, the clipped amplitude of row `256 b + p` of `X`. -/
theorem blockAmp_eq_rowAmp (X : Rows.Idx → EReal) (x0 : Vec Ideal S256x4096 .f32) (p : Fin 256) (r : Fin 8192)
    (hx : ∀ j : Fin 4096, x0 (ix2 p j) = X (ix2 r j)) : blockAmp x0 p = rowAmp X r :=
  congrArg (fun f => max eps ((Finset.univ : Finset (Fin 4096)).fold max ninf f))
    (funext fun j => congrArg absE (hx j))

/-- The quantised block at `y` is the quantised array at the index `i` that `y` stands for. -/
theorem quantised_point (X : Rows.Idx → EReal) (x0 : Vec Ideal S256x4096 .f32) (b : Nat) (hb : b < 32)
    (hx : ∀ (p : Fin 256) (j : Fin 4096), x0 (ix2 p j) = X (ix2 ⟨b * 256 + p.val, by have := p.isLt; omega⟩ j))
    (y : S256x4096.Idx) (i : Rows.Idx) (hi0 : (i 0).val = b * 256 + (y 0).val) (hi1 : (i 1).val = (y 1).val) :
    k0_pay4 (F := Ideal) x0 y = quantRow X i := by
  obtain ⟨p, j, rfl⟩ : ∃ (p : Fin 256) (j : Fin 4096), y = ix2 p j := ⟨y 0, y 1, eq_ix2 y⟩
  have hlt : b * 256 + p.val < 8192 := by have := p.isLt; omega
  obtain ⟨r, k, rfl⟩ : ∃ (r : Fin 8192) (k : Fin 4096), i = ix2 r k := ⟨i 0, i 1, eq_ix2 i⟩
  obtain rfl : j = k := (Fin.ext hi1).symm
  obtain rfl : r = ⟨b * 256 + p.val, hlt⟩ := Fin.ext hi0
  refine (quantised_apply x0 p j).trans ?_
  rw [blockAmp_eq_rowAmp X x0 p _ (hx p), hx p j]
  rfl

/-- The inverse-scale column of the block at `y` is the array's column at the index `i` that `y` stands for. -/
theorem invScale_point (X : Rows.Idx → EReal) (x0 : Vec Ideal S256x4096 .f32) (b : Nat) (hb : b < 32)
    (hx : ∀ (p : Fin 256) (j : Fin 4096), x0 (ix2 p j) = X (ix2 ⟨b * 256 + p.val, by have := p.isLt; omega⟩ j))
    (y : S256x1.Idx) (i : RowCol.Idx) (hi0 : (i 0).val = b * 256 + (y 0).val) :
    k0_pay3 (F := Ideal) x0 y = invScaleCol X i := by
  obtain ⟨p, u, rfl⟩ : ∃ (p : Fin 256) (u : Fin 1), y = ix2 p u := ⟨y 0, y 1, eq_ix2 y⟩
  have hlt : b * 256 + p.val < 8192 := by have := p.isLt; omega
  obtain ⟨r, v, rfl⟩ : ∃ (r : Fin 8192) (v : Fin 1), i = ix2 r v := ⟨i 0, i 1, eq_ix2 i⟩
  obtain rfl : r = ⟨b * 256 + p.val, hlt⟩ := Fin.ext hi0
  refine (invScale_apply x0 p u).trans ?_
  rw [blockAmp_eq_rowAmp X x0 p _ (hx p)]
  rfl

/-! ## What each grid point writes back, and the arrays after the pass -/

/-- The body's one load and its two stores go through the whole staging buffers: rectangles at zero offsets. -/
theorem zeroOffsets : (![0, 0] : Fin 2 → Nat) = fun _ => 0 := funext fun a => by fin_cases a <;> rfl

/-- The printed index maps, decided over the 32 grid points: at point `t` all three windows sit at block `(t, 0)`. -/
theorem blockIndices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The grid has 32 points, so a point's number is below 32. -/
theorem point_lt (t : Fin cfg0.N) : t.val < 32 := lt_of_lt_of_eq t.isLt N_0

/-- Point `t`'s input block is rows `256 t … 256 t + 255` of the array of activations. -/
theorem inBlock_apply (c : Dev nD) (t : Fin cfg0.N) (p : Fin 256) (j : Fin 4096) :
    (iblk0 (F := Ideal) V c 0 t : Vec Ideal S256x4096 .f32) (ix2 p j)
      = (V c main_v0 : Rows.Idx → EReal) (ix2 ⟨t.val * 256 + p.val, by have := p.isLt; have := point_lt t; omega⟩ j) := by
  obtain ⟨e0, e1, -⟩ := blockIndices t
  unfold iblk0
  rw [View.read_apply]
  show V c main_v0 _ = V c main_v0 _
  congr 1
  funext a
  apply Fin.ext
  match a with
  | ⟨0, _⟩ => show win0_0.index t (0 : Fin 2) * 256 + 1 * p.val = t.val * 256 + p.val; rw [e0]; omega
  | ⟨1, _⟩ => show win0_0.index t (1 : Fin 2) * 4096 + 1 * j.val = j.val; rw [e1]; omega

/-- WHAT POINT `t` WRITES BACK to the quantised array is block `t` of the quantised rows. -/
theorem quant_flushed (c : Dev nD) (t : Fin cfg0.N) :
    (dat0 (F := Ideal) V c).flushed 1 t
      = ((cfg0.win 1).blk t).view.read (Elt Ideal) (quantRow (V c main_v0)) := by
  show (cfg0.win 1).cut (grid0.coords t) ((dat0 (F := Ideal) V c).after 1 t) = _
  rw [after0_1]
  unfold out0_1
  rw [View.canon_unit_zero zeroOffsets]
  simp only [View.ld_unit_zero (S := S256x4096) zeroOffsets]
  obtain ⟨-, -, e0, e1, -, -⟩ := blockIndices t
  funext y
  show k0_pay4 (F := Ideal) (iblk0 (F := Ideal) V c 0 t) y = quantRow (V c main_v0) (((cfg0.win 1).blk t).view.emb y)
  refine quantised_point (V c main_v0) (iblk0 (F := Ideal) V c 0 t) t.val (point_lt t) (inBlock_apply V c t) y _ ?_ ?_
  · show win0_1.index t (0 : Fin 2) * 256 + 1 * (y 0).val = t.val * 256 + (y 0).val; rw [e0]; omega
  · show win0_1.index t (1 : Fin 2) * 4096 + 1 * (y 1).val = (y 1).val; rw [e1]; omega

/-- WHAT POINT `t` WRITES BACK to the inverse-scale column is block `t` of the column of inverse scales. -/
theorem invScale_flushed (c : Dev nD) (t : Fin cfg0.N) :
    (dat0 (F := Ideal) V c).flushed 2 t
      = ((cfg0.win 2).blk t).view.read (Elt Ideal) (invScaleCol (V c main_v0)) := by
  show (cfg0.win 2).cut (grid0.coords t) ((dat0 (F := Ideal) V c).after 2 t) = _
  rw [after0_2]
  unfold out0_2
  rw [View.canon_unit_zero zeroOffsets]
  simp only [View.ld_unit_zero (S := S256x4096) zeroOffsets]
  obtain ⟨-, -, -, -, e0, e1⟩ := blockIndices t
  funext y
  show k0_pay3 (F := Ideal) (iblk0 (F := Ideal) V c 0 t) y = invScaleCol (V c main_v0) (((cfg0.win 2).blk t).view.emb y)
  refine invScale_point (V c main_v0) (iblk0 (F := Ideal) V c 0 t) t.val (point_lt t) (inBlock_apply V c t) y _ ?_
  show win0_2.index t (0 : Fin 2) * 256 + 1 * (y 0).val = t.val * 256 + (y 0).val; rw [e0]; omega

/-- An index of the quantised array lies in point `t`'s block iff each coordinate lies in the block's range on its axis. -/
theorem mem_quantBlock (t : Fin cfg0.N) (i : S8192x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v1_0).slice (win0_1.rect t)).set ↔ _
  rw [View.set_slice_whole, Rect.mem_set_unit]
  exact Iff.rfl

/-- Likewise for the column of inverse scales. -/
theorem mem_scaleBlock (t : Fin cfg0.N) (i : S8192x1.Idx) :
    i ∈ ((cfg0.win 2).blk t).view.set ↔ ∀ a : Fin 2, win0_2.index t a * S256x1.size a ≤ (i a).val
      ∧ (i a).val < win0_2.index t a * S256x1.size a + S256x1.size a := by
  show i ∈ ((View.whole main_v1_1).slice (win0_2.rect t)).set ↔ _
  rw [View.set_slice_whole, Rect.mem_set_unit]
  exact Iff.rfl

/-- The point whose block holds row `r` is `r / 256`. -/
theorem pointOfRow (r : Nat) (hr : r < 8192) : ∃ t : Fin cfg0.N, t.val = r / 256 :=
  ⟨⟨r / 256, lt_of_lt_of_eq (show r / 256 < 32 by omega) N_0.symm⟩, rfl⟩

/-- The 32 blocks tile the quantised array: every index is in the block of its row's point. -/
theorem quant_cover (i : S8192x4096.Idx) :
    ∃ t : Fin cfg0.N, (cfg0.win 1).flush t = true ∧ i ∈ ((cfg0.win 1).blk t).view.set := by
  have hi1 : (i 1).val < 4096 := (i 1).isLt
  obtain ⟨t, ht⟩ := pointOfRow (i 0).val (i 0).isLt
  obtain ⟨-, -, e0, e1, -, -⟩ := blockIndices t
  refine ⟨t, flush0_1 t, ?_⟩
  rw [mem_quantBlock]
  intro a
  match a with
  | ⟨0, _⟩ =>
    show win0_1.index t (0 : Fin 2) * 256 ≤ (i 0).val ∧ (i 0).val < win0_1.index t (0 : Fin 2) * 256 + 256
    rw [e0, ht]; omega
  | ⟨1, _⟩ =>
    show win0_1.index t (1 : Fin 2) * 4096 ≤ (i 1).val ∧ (i 1).val < win0_1.index t (1 : Fin 2) * 4096 + 4096
    rw [e1]; omega

/-- And the 32 blocks of 256 entries tile the column of inverse scales. -/
theorem invScale_cover (i : S8192x1.Idx) :
    ∃ t : Fin cfg0.N, (cfg0.win 2).flush t = true ∧ i ∈ ((cfg0.win 2).blk t).view.set := by
  have hi1 : (i 1).val < 1 := (i 1).isLt
  obtain ⟨t, ht⟩ := pointOfRow (i 0).val (i 0).isLt
  obtain ⟨-, -, -, -, e0, e1⟩ := blockIndices t
  refine ⟨t, flush0_2 t, ?_⟩
  rw [mem_scaleBlock]
  intro a
  match a with
  | ⟨0, _⟩ =>
    show win0_2.index t (0 : Fin 2) * 256 ≤ (i 0).val ∧ (i 0).val < win0_2.index t (0 : Fin 2) * 256 + 256
    rw [e0, ht]; omega
  | ⟨1, _⟩ =>
    show win0_2.index t (1 : Fin 2) * 1 ≤ (i 1).val ∧ (i 1).val < win0_2.index t (1 : Fin 2) * 1 + 1
    rw [e1]; omega

/-- The quantised-activation array after the pass. -/
theorem quant_array (c : Dev nD) :
    (dat0 (F := Ideal) V c).arrAt 1 cfg0.N = quantRow (V c main_v0) :=
  (dat0 (F := Ideal) V c).arrAt_eq_of_cover 1 (quantRow (V c main_v0)) (fun t _ => quant_flushed V c t) quant_cover

/-- The inverse-scale column after the pass. -/
theorem invScale_array (c : Dev nD) :
    (dat0 (F := Ideal) V c).arrAt 2 cfg0.N = invScaleCol (V c main_v0) :=
  (dat0 (F := Ideal) V c).arrAt_eq_of_cover 2 (invScaleCol (V c main_v0)) (fun t _ => invScale_flushed V c t) invScale_cover

end Cert.KernelIdeal.Quantise

end
-- ==== Proof.Region1.lean ====
/-
  The product pass, read as values: after its 16 × 16 grid points the output array holds `scaledProduct` of the
  four arrays it was given — the quantised rows, the raw weights, the inverse-scale column and the cell with the
  weights' mean magnitude. A grid point (n, m) takes 512 rows and 256 output features and contracts the whole
  feature axis at once, so each output entry is written by exactly one point.
-/
import proofs.«100234_j24962349924854_1_alg».proof.Proof.Gen.KernelIdeal.Frame
import proofs.«100234_j24962349924854_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Product

open Idealize.ShloMosaic Idealize.ShloMosaic.TcCoe Idealize.ShloMosaic.ValueIdx Idealize.SL.Sem
open Cert.KernelIdeal Cert.KernelIdeal.Gen Cert.TernaryLinear
open Idealize.ShloMosaic.Pipeline (Dat)

/-! ## The contraction's operand indices, axis by axis -/

/-- The left operand keeps the output's row … -/
private theorem lhs_row (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
/-- … and runs over the contracted feature on its second axis. -/
private theorem lhs_feature (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
/-- The right operand's row is the output's column … -/
private theorem rhs_row (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
/-- … and it too runs over the contracted feature on its second axis. -/
private theorem rhs_feature (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-! ## The payload's pieces, each read at an index -/

/-- The cell's one entry. -/
private theorem cell_entry (cell : Vec Ideal S1x1 .f32) : extractAt ![0, 0] cell inpos_S1x1_p0_0 = cell (ix2 0 0) :=
  congrArg cell (funext fun a => Fin.ext (by match a with | ⟨0, _⟩ => rfl | ⟨1, _⟩ => rfl))

/-- The column of inverse scales, spread along the output features, reads its row's entry everywhere. -/
private theorem scale_spread (s : Vec Ideal S512x1 .f32) (p : Fin 512) (o : Fin 256) :
    broadcastTo S512x256 (shapeCast S512x1 s shapeCasts_S512x1_S512x1) broadcasts_S512x1_S512x256 (ix2 p o)
      = s (ix2 p 0) := by
  rw [shapeCast_self]
  exact broadcastTo_apply s broadcasts_S512x1_S512x256 (ix2 p o) (ix2 p 0) (fun a => by
    match a with
    | ⟨0, _⟩ => rfl
    | ⟨1, _⟩ => rfl)

/-- The contraction into a zero accumulator, at row `p` and output feature `o`: the sum over the features of the
    left operand's row `p` times the right operand's row `o`. -/
private theorem contraction_entry (x : FVec Ideal S512x4096 .bf16) (y : FVec Ideal S256x4096 .bf16) (p : Fin 512) (o : Fin 256) :
    matmul dot_S512x4096_S256x4096_S512x256_1_1_0_0_n_n none x y (constant (F := Ideal) S512x256 .f32 0x00000000#32) (ix2 p o)
      = ∑ k : Fin 4096, x (ix2 p k) * y (ix2 o k) := by
  simp only [matmul]
  rw [Ideal.matmul_constant_zero_apply, ← Equiv.sum_comp (ValueIdx.contrEquiv1 dot_S512x4096_S256x4096_S512x256_1_1_0_0_n_n 4096 rfl rfl).symm]
  refine Finset.sum_congr rfl fun k _ => ?_
  have hk := ValueIdx.contrEquiv1_symm_val dot_S512x4096_S256x4096_S512x256_1_1_0_0_n_n 4096 rfl rfl k
  have el : dot_S512x4096_S256x4096_S512x256_1_1_0_0_n_n.lhsIdx (ix2 p o) ((ValueIdx.contrEquiv1 dot_S512x4096_S256x4096_S512x256_1_1_0_0_n_n 4096 rfl rfl).symm k) = ix2 p k := funext fun a => Fin.ext (by
    match a with
    | ⟨0, _⟩ => exact lhs_row _ _
    | ⟨1, _⟩ => exact (lhs_feature _ _).trans hk)
  have er : dot_S512x4096_S256x4096_S512x256_1_1_0_0_n_n.rhsIdx (ix2 p o) ((ValueIdx.contrEquiv1 dot_S512x4096_S256x4096_S512x256_1_1_0_0_n_n 4096 rfl rfl).symm k) = ix2 o k := funext fun a => Fin.ext (by
    match a with
    | ⟨0, _⟩ => exact rhs_row _ _
    | ⟨1, _⟩ => exact (rhs_feature _ _).trans hk)
  rw [el, er]

/-- THE PAYLOAD AT AN INDEX: row `p` of the quantised block against the ternary row `o` of the weight block, summed
    over the features, then scaled by the row's inverse scale and by the cell's entry. -/
private theorem payload_entry (q : Vec Ideal S512x4096 .bf16) (w : Vec Ideal S256x4096 .f32) (cell : Vec Ideal S1x1 .f32)
    (s : Vec Ideal S512x1 .f32) (p : Fin 512) (o : Fin 256) :
    k1_pay1 (F := Ideal) q w cell s (ix2 p o)
      = ((∑ k : Fin 4096, q (ix2 p k) * (min pone (max mone (rnd (Ideal.div (w (ix2 o k)) (cell (ix2 0 0)))))))
          * s (ix2 p 0)) * cell (ix2 0 0) := by
  unfold k1_pay1
  simp only [mulf_apply, broadcast_apply]
  rw [cell_entry, scale_spread, shapeCast_self, contraction_entry]
  rfl

/-- The payload at any index of the output block, by its two coordinates. -/
private theorem payload_at (q : Vec Ideal S512x4096 .bf16) (w : Vec Ideal S256x4096 .f32) (cell : Vec Ideal S1x1 .f32)
    (s : Vec Ideal S512x1 .f32) (j : S512x256.Idx) :
    k1_pay1 (F := Ideal) q w cell s j
      = ((∑ k : Fin 4096, q (ix2 (j 0) k) * (min pone (max mone (rnd (Ideal.div (w (ix2 (j 1) k)) (cell (ix2 0 0)))))))
          * s (ix2 (j 0) 0)) * cell (ix2 0 0) := by
  obtain ⟨p, o, rfl⟩ : ∃ (p : Fin 512) (o : Fin 256), j = ix2 p o := ⟨j 0, j 1, eq_ix2 j⟩
  exact payload_entry q w cell s p o

/-- ONE ENTRY OF A BLOCK IS ONE ENTRY OF THE SCALED PRODUCT: when the four blocks are the arrays' entries at the rows
    and features the output entry `e` names (`hq`, `hw`, `hs`, `hc`), the payload at the block's index `j` is the
    scaled product of the arrays at `e`. -/
private theorem block_entry (A : Rows.Idx → EReal) (W : Wt.Idx → EReal) (S : RowCol.Idx → EReal) (M : Cell.Idx → EReal)
    (q : Vec Ideal S512x4096 .bf16) (w : Vec Ideal S256x4096 .f32) (cell : Vec Ideal S1x1 .f32)
    (s : Vec Ideal S512x1 .f32) (j : S512x256.Idx) (e : Rows.Idx)
    (hq : ∀ k : Fin 4096, q (ix2 (j 0) k) = A (ix2 (e 0) k))
    (hw : ∀ k : Fin 4096, w (ix2 (j 1) k) = W (ix2 (e 1) k))
    (hs : s (ix2 (j 0) 0) = S (ix2 (e 0) 0))
    (hc : cell (ix2 0 0) = M (ix2 0 0)) :
    k1_pay1 (F := Ideal) q w cell s j = scaledProduct A W S M e := by
  rw [payload_at]
  unfold scaledProduct ternDiv
  simp only [hq, hw, hs, hc]

/-! ## The blocks a grid point reads and writes -/

private theorem zero_offsets : (![0, 0] : Fin 2 → Nat) = fun _ => 0 := funext fun a => by fin_cases a <;> rfl

/-- The five printed index maps, decided over the 256 grid points: point `t` writes the output block
    (t mod 16, t / 16); it reads the quantised rows' and the inverse scales' block of the same row index, the
    weights' block whose row index is the output's column index, and the one cell. -/
private theorem block_indices : ∀ t : Fin cfg1.N,
    win1_4.index t (0 : Fin 2) = t.val % 16
    ∧ win1_4.index t (1 : Fin 2) = t.val / 16
    ∧ win1_0.index t (0 : Fin 2) = win1_4.index t (0 : Fin 2)
    ∧ win1_0.index t (1 : Fin 2) = 0
    ∧ win1_1.index t (0 : Fin 2) = win1_4.index t (1 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is block `t` of the scaled product of the four arrays as the pass finds them. -/
private theorem written_block (c : Dev nD) (t : Fin cfg1.N) :
    (dat1 (F := Ideal) V c).flushed 4 t
      = ((cfg1.win 4).blk t).view.read (Elt Ideal)
          (scaledProduct (V c main_v1_0) (V c main_arg1) (V c main_v1_1) (V c main_v6)) := by
  show (cfg1.win 4).cut (grid1.coords t) ((dat1 (F := Ideal) V c).after 4 t) = _
  rw [after1_4]
  unfold out1_4
  rw [View.canon_unit_zero zero_offsets]
  simp only [View.ld_unit_zero (S := S512x4096) zero_offsets, View.ld_unit_zero (S := S256x4096) zero_offsets,
    View.ld_unit_zero (S := S1x1) zero_offsets, View.ld_unit_zero (S := S512x1) zero_offsets]
  obtain ⟨e40, e41, e00, e01, e10, e11, e20, e21, e30, e31⟩ := block_indices t
  funext j
  refine block_entry (V c main_v1_0) (V c main_arg1) (V c main_v1_1) (V c main_v6) (iblk1 V c 0 t) (iblk1 V c 1 t)
    (iblk1 V c 3 t) (iblk1 V c 2 t) j (((cfg1.win 4).blk t).view.emb j) (fun k => ?_) (fun k => ?_) ?_ ?_
  · -- the quantised rows' block: the output block's rows, every feature
    show V c main_v1_0 (((cfg1.win 0).blk t).view.emb (ix2 (j 0) k)) = _
    refine congrArg (V c main_v1_0) (funext fun a => Fin.ext ?_)
    match a with
    | ⟨0, _⟩ => show win1_0.index t (0 : Fin 2) * 512 + 1 * (j 0).val = win1_4.index t (0 : Fin 2) * 512 + 1 * (j 0).val; omega
    | ⟨1, _⟩ => show win1_0.index t (1 : Fin 2) * 4096 + 1 * k.val = k.val; omega
  · -- the weights' block: its rows are the output block's features
    show V c main_arg1 (((cfg1.win 1).blk t).view.emb (ix2 (j 1) k)) = _
    refine congrArg (V c main_arg1) (funext fun a => Fin.ext ?_)
    match a with
    | ⟨0, _⟩ => show win1_1.index t (0 : Fin 2) * 256 + 1 * (j 1).val = win1_4.index t (1 : Fin 2) * 256 + 1 * (j 1).val; omega
    | ⟨1, _⟩ => show win1_1.index t (1 : Fin 2) * 4096 + 1 * k.val = k.val; omega
  · -- the inverse scales' block: the output block's rows
    show V c main_v1_1 (((cfg1.win 2).blk t).view.emb (ix2 (j 0) 0)) = _
    refine congrArg (V c main_v1_1) (funext fun a => Fin.ext ?_)
    match a with
    | ⟨0, _⟩ => show win1_2.index t (0 : Fin 2) * 512 + 1 * (j 0).val = win1_4.index t (0 : Fin 2) * 512 + 1 * (j 0).val; omega
    | ⟨1, _⟩ => show win1_2.index t (1 : Fin 2) * 1 + 1 * 0 = 0; omega
  · -- the cell
    show V c main_v6 (((cfg1.win 3).blk t).view.emb (ix2 0 0)) = _
    refine congrArg (V c main_v6) (funext fun a => Fin.ext ?_)
    match a with
    | ⟨0, _⟩ => show win1_3.index t (0 : Fin 2) * 1 + 1 * 0 = 0; omega
    | ⟨1, _⟩ => show win1_3.index t (1 : Fin 2) * 1 + 1 * 0 = 0; omega

/-! ## The blocks tile the array -/

/-- An entry of the array is in point `t`'s block iff each coordinate is in the block's range on its axis. -/
private theorem mem_block (t : Fin cfg1.N) (i : S8192x4096.Idx) :
    i ∈ ((cfg1.win 4).blk t).view.set ↔ ∀ a : Fin 2, win1_4.index t a * S512x256.size a ≤ (i a).val
      ∧ (i a).val < win1_4.index t a * S512x256.size a + S512x256.size a := by
  show i ∈ ((View.whole main_v7).slice (win1_4.rect t)).set ↔ _
  rw [View.set_slice_whole, Rect.mem_set_unit]
  exact Iff.rfl

/-- Every entry (r, o) is written: by the point with row block r / 512 and feature block o / 256. -/
private theorem every_entry_written (i : S8192x4096.Idx) :
    ∃ t : Fin cfg1.N, (cfg1.win 4).flush t = true ∧ i ∈ ((cfg1.win 4).blk t).view.set := by
  have hi0 : (i 0).val < 8192 := (i 0).isLt
  have hi1 : (i 1).val < 4096 := (i 1).isLt
  obtain ⟨n, hn⟩ : ∃ n : Nat, n = (i 1).val / 256 * 16 + (i 0).val / 512 := ⟨_, rfl⟩
  have ht : n < cfg1.N := lt_of_lt_of_eq (by omega : n < 256) N_1.symm
  obtain ⟨e40, e41, -⟩ := block_indices ⟨n, ht⟩
  have q0 : win1_4.index ⟨n, ht⟩ (0 : Fin 2) = n % 16 := e40
  have q1 : win1_4.index ⟨n, ht⟩ (1 : Fin 2) = n / 16 := e41
  refine ⟨⟨n, ht⟩, flush1_4 _, ?_⟩
  rw [mem_block]
  intro a
  match a with
  | ⟨0, _⟩ => show win1_4.index ⟨n, ht⟩ (0 : Fin 2) * 512 ≤ (i 0).val ∧ (i 0).val < win1_4.index ⟨n, ht⟩ (0 : Fin 2) * 512 + 512; omega
  | ⟨1, _⟩ => show win1_4.index ⟨n, ht⟩ (1 : Fin 2) * 256 ≤ (i 1).val ∧ (i 1).val < win1_4.index ⟨n, ht⟩ (1 : Fin 2) * 256 + 256; omega

/-- The output array after the pass. -/
theorem product_array (c : Dev nD) :
    (dat1 (F := Ideal) V c).arrAt 4 cfg1.N
      = scaledProduct (V c main_v1_0) (V c main_arg1) (V c main_v1_1) (V c main_v6) := by
  exact (dat1 (F := Ideal) V c).arrAt_eq_of_cover 4 _ (fun t _ => written_block V c t) every_entry_written

end Cert.KernelIdeal.Product

end
-- ==== Proof.KernelTerm.lean ====
/-
  The kernel program's result as ONE term of its two arguments: the activations flattened to one token per row,
  quantised row by row; the weights' clipped mean magnitude computed once into a single cell; the scaled ternary
  product of the two; the rows folded back to [batch, sequence, feature].
-/
import proofs.«100234_j24962349924854_1_alg».proof.Proof.Gen.KernelIdeal
import proofs.«100234_j24962349924854_1_alg».proof.Proof.Spec
import Idealize.ShloMosaic.PureOps.Ideal

noncomputable section

namespace Cert.KernelIdeal.Flat

open Idealize.ShloMosaic Cert.KernelIdeal Cert.KernelIdeal.Facts₀ Cert.TernaryLinear

/-- The activations with (batch, sequence) flattened row-major into one row index. -/
def flatRows (x : FVec Ideal S4x2048x4096 .f32) : FVec Ideal S8192x4096 .f32 :=
  shapeCast S8192x4096 x shapeCasts_S4x2048x4096_S8192x4096

/-- The cell holding `max ε ((0 + Σ |w|) / 2²⁴)`. -/
def meanCell (w : FVec Ideal S4096x4096 .f32) : FVec Ideal S1x1 .f32 :=
  shapeCast S1x1
    (maximumf (constant S_ .f32 0x3727C5AC#32)
      (Host.divf (Host.reduceAdd (Host.absf w) (constant S_ .f32 0x00000000#32) reducesTo_S4096x4096_S_d0_1 h_S_)
        (constant S_ .f32 0x4B800000#32)))
    shapeCasts_S_S1x1

/-- The program's result: quantise the flattened rows, take the scaled ternary product, fold the rows back. -/
def kernelValue (x : FVec Ideal S4x2048x4096 .f32) (w : FVec Ideal S4096x4096 .f32) : FVec Ideal S4x2048x4096 .f32 :=
  shapeCast S4x2048x4096
    (scaledProduct (quantRow (flatRows x)) w (invScaleCol (flatRows x)) (meanCell w))
    shapeCasts_S8192x4096_S4x2048x4096

end Cert.KernelIdeal.Flat

end
-- ==== Proof.Glue.lean ====
/-
  The result buffer of the kernel program, traced back through the run's boundary contents to the arguments: the
  last host operation folds the product pass's output rows back to [batch, sequence, feature]; the product pass was
  entered with the quantising pass's two outputs, the untouched weights and the cell holding their clipped mean
  magnitude; the quantising pass was entered with the activations flattened to rows. The three facts about what the
  two passes leave in their output arrays are taken as hypotheses here and supplied where the claims are assembled.
-/
import proofs.«100234_j24962349924854_1_alg».proof.Proof.Gen.KernelIdeal.Frame
import proofs.«100234_j24962349924854_1_alg».proof.Proof.KernelTerm
import Idealize.ShloMosaic.Lib.StableHlo.Run
import Idealize.ShloMosaic.PureOps.Ideal

set_option maxRecDepth 16384

noncomputable section

namespace Cert.KernelIdeal.Trace

open Idealize.ShloMosaic Idealize.ShloMosaic.TcCoe Idealize.SL.Sem Idealize.ShloMosaic.StableHlo
open Cert.KernelIdeal Cert.KernelIdeal.Gen Cert.KernelIdeal.Flat Cert.TernaryLinear

variable (m : (ℓ : Loc nD τ sig) → Buf (Elt Ideal) ℓ) (ρ : Dev nD → PrngReg)

/-- The quantising pass is entered with the activations flattened to one token per row. -/
theorem rows_at_entry (c : Dev nD) :
    V1 m ρ c main_v0 = flatRows (m ((c.tc : Thread nD τ).loc main_arg0)) := by
  show StableHlo.after hostOps0 _ (Proc.devRef .tc main_v0) = _
  after_results
  rfl

/-- No host operation and no pass writes the weights before the product pass reads them. -/
theorem weights_at_entry (c : Dev nD) :
    V5 m ρ c main_arg1 = m ((c.tc : Thread nD τ).loc main_arg1) := by
  show StableHlo.after hostOps1_2 _ (Proc.devRef .tc main_arg1) = _
  after_results
  rw [W2_of_ne m ρ c main_arg1 (by decide)]
  show StableHlo.after hostOps0 _ (Proc.devRef .tc main_arg1) = _
  after_results

/-- The cell the product pass reads holds the weights' clipped mean magnitude. -/
theorem cell_at_entry (c : Dev nD) :
    V5 m ρ c main_v6 = meanCell (m ((c.tc : Thread nD τ).loc main_arg1)) := by
  have hw : W2 m ρ c (Proc.devRef .tc main_arg1) = m ((c.tc : Thread nD τ).loc main_arg1) := by
    rw [W2_of_ne m ρ c main_arg1 (by decide)]
    show StableHlo.after hostOps0 _ (Proc.devRef .tc main_arg1) = _
    after_results
  show StableHlo.after hostOps1_2 _ (Proc.devRef .tc main_v6) = _
  after_results
  rw [hw]
  rfl

/-- The product pass is entered with the quantised rows the quantising pass left. -/
theorem quant_at_entry (hq : ∀ c : Dev nD, (dat0 (F := Ideal) (V1 m ρ) c).arrAt 1 cfg0.N = quantRow (V1 m ρ c main_v0)) (c : Dev nD) :
    V5 m ρ c main_v1_0 = quantRow (flatRows (m ((c.tc : Thread nD τ).loc main_arg0))) := by
  show StableHlo.after hostOps1_2 _ (Proc.devRef .tc main_v1_0) = _
  after_results
  rw [← rows_at_entry m ρ c, ← hq c]
  exact W2_arr m ρ c 1

/-- … and with the inverse scales it left. -/
theorem invScale_at_entry (hs : ∀ c : Dev nD, (dat0 (F := Ideal) (V1 m ρ) c).arrAt 2 cfg0.N = invScaleCol (V1 m ρ c main_v0)) (c : Dev nD) :
    V5 m ρ c main_v1_1 = invScaleCol (flatRows (m ((c.tc : Thread nD τ).loc main_arg0))) := by
  show StableHlo.after hostOps1_2 _ (Proc.devRef .tc main_v1_1) = _
  after_results
  rw [← rows_at_entry m ρ c, ← hs c]
  exact W2_arr m ρ c 2

/-- THE RESULT BUFFER holds the program's result term of the two arguments. -/
theorem result_buffer (hq : ∀ c : Dev nD, (dat0 (F := Ideal) (V1 m ρ) c).arrAt 1 cfg0.N = quantRow (V1 m ρ c main_v0))
    (hs : ∀ c : Dev nD, (dat0 (F := Ideal) (V1 m ρ) c).arrAt 2 cfg0.N = invScaleCol (V1 m ρ c main_v0))
    (hp : ∀ c : Dev nD, (dat1 (F := Ideal) (V5 m ρ) c).arrAt 4 cfg1.N
      = scaledProduct (V5 m ρ c main_v1_0) (V5 m ρ c main_arg1) (V5 m ρ c main_v1_1) (V5 m ρ c main_v6)) (c : Dev nD) :
    W7 m ρ c (Proc.devRef .tc main_v8)
      = kernelValue (m ((c.tc : Thread nD τ).loc main_arg0)) (m ((c.tc : Thread nD τ).loc main_arg1)) := by
  have h7 : W6 m ρ c (Proc.devRef .tc main_v7)
      = scaledProduct (quantRow (flatRows (m ((c.tc : Thread nD τ).loc main_arg0)))) (m ((c.tc : Thread nD τ).loc main_arg1))
          (invScaleCol (flatRows (m ((c.tc : Thread nD τ).loc main_arg0)))) (meanCell (m ((c.tc : Thread nD τ).loc main_arg1))) := by
    rw [← quant_at_entry m ρ hq c, ← invScale_at_entry m ρ hs c, ← cell_at_entry m ρ c, ← weights_at_entry m ρ c, ← hp c]
    exact W6_arr m ρ c 4
  show StableHlo.after hostOps2 _ (Proc.devRef .tc main_v8) = _
  after_results
  rw [h7]
  rfl

end Cert.KernelIdeal.Trace

end
-- ==== Proof.Layout.lean ====
/-
  The kernel program's result term, read index by index, is `result`: flattening (batch, sequence) to a row and
  folding it back are inverse re-indexings (row = 2048 · batch + sequence), the mean cell holds `meanAbs`, and the
  row-wise quantities of a flattened row are the token's.
-/
import proofs.«100234_j24962349924854_1_alg».proof.Proof.KernelTerm
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Flat

open Idealize.ShloMosaic Idealize.ShloMosaic.ValueIdx Cert.KernelIdeal Cert.KernelIdeal.Facts₀ Cert.TernaryLinear

/-! ## The two re-indexings -/

/-- The row of token (b, s) in the flattened activations: `2048 · b + s`. -/
private abbrev rowOf (b : Fin 4) (s : Fin 2048) : Fin 8192 := ⟨2048 * b.val + s.val, by omega⟩

/-- The flattened activations at row `2048 · b + s`, column `j`, are the activations at (b, s, j): both sit at
    row-major position `(2048 · b + s) · 4096 + j`. -/
private theorem flatRows_apply (x : FVec Ideal S4x2048x4096 .f32) (b : Fin 4) (s : Fin 2048) (j : Fin 4096) :
    flatRows x (ix2 (rowOf b s) j) = x (ix3 b s j) := by
  unfold flatRows
  refine shapeCast_apply x shapeCasts_S4x2048x4096_S8192x4096 (ix2 (rowOf b s) j) (ix3 b s j) ?_
  rw [Shape.rowMajor_val_three, Shape.rowMajor_val_two]
  show (b.val * 2048 + s.val) * 4096 + j.val = (2048 * b.val + s.val) * 4096 + j.val
  rw [Nat.mul_comm b.val 2048]

/-- Folding the rows back: the result at (b, s, o) is the row array at row `2048 · b + s`, column `o`. -/
private theorem foldRows_apply {α : Type} (y : S8192x4096.Idx → α) (b : Fin 4) (s : Fin 2048) (o : Fin 4096) :
    shapeCast S4x2048x4096 y shapeCasts_S8192x4096_S4x2048x4096 (ix3 b s o) = y (ix2 (rowOf b s) o) := by
  refine shapeCast_apply y shapeCasts_S8192x4096_S4x2048x4096 (ix3 b s o) (ix2 (rowOf b s) o) ?_
  rw [Shape.rowMajor_val_three, Shape.rowMajor_val_two]
  show (2048 * b.val + s.val) * 4096 + o.val = (b.val * 2048 + s.val) * 4096 + o.val
  rw [Nat.mul_comm b.val 2048]

/-! ## The row quantities of a flattened row are the token's -/

/-- The clipped amplitude of row `2048 · b + s` is the token's: the two running maxima fold the same magnitudes. -/
private theorem rowAmp_flatRows (x : FVec Ideal S4x2048x4096 .f32) (b : Fin 4) (s : Fin 2048) :
    rowAmp (flatRows x) (rowOf b s) = tokAmp x b s := by
  unfold rowAmp tokAmp
  exact congrArg (fun f : Fin 4096 → EReal => max eps ((Finset.univ : Finset (Fin 4096)).fold max ninf f))
    (funext fun j => congrArg absE (flatRows_apply x b s j))

/-- The quantised entry of row `2048 · b + s`, column `k`, is the token's quantised entry `k`. -/
private theorem quantRow_flatRows (x : FVec Ideal S4x2048x4096 .f32) (b : Fin 4) (s : Fin 2048) (k : Fin 4096) :
    quantRow (flatRows x) (ix2 (rowOf b s) k) = tokQuant x b s k := by
  show min qmax (max qmin (rnd (flatRows x (ix2 (rowOf b s) k) * Ideal.div qmax (rowAmp (flatRows x) (rowOf b s)))))
    = min qmax (max qmin (rnd (x (ix3 b s k) * Ideal.div qmax (tokAmp x b s))))
  rw [flatRows_apply, rowAmp_flatRows]

/-- The inverse scale of row `2048 · b + s` is the token's amplitude over 127. -/
private theorem invScaleCol_flatRows (x : FVec Ideal S4x2048x4096 .f32) (b : Fin 4) (s : Fin 2048) :
    invScaleCol (flatRows x) (ix2 (rowOf b s) (0 : Fin 1)) = Ideal.div (tokAmp x b s) qmax := by
  show Ideal.div (rowAmp (flatRows x) (rowOf b s)) qmax = Ideal.div (tokAmp x b s) qmax
  rw [rowAmp_flatRows]

/-! ## The mean cell -/

/-- The one cell holds the clipped mean magnitude: the rank-0 value moved to [1, 1] unchanged, the sum over both axes
    the total sum started from `0`. -/
private theorem meanCell_apply (w : FVec Ideal S4096x4096 .f32) :
    meanCell w (ix2 (0 : Fin 1) (0 : Fin 1)) = meanAbs w := by
  unfold meanCell
  refine (shapeCast_apply _ shapeCasts_S_S1x1 (ix2 (0 : Fin 1) (0 : Fin 1)) ix0 ?_).trans ?_
  · have h1 := (S_.rowMajor ix0).isLt
    have h2 := (S1x1.rowMajor (ix2 (0 : Fin 1) (0 : Fin 1))).isLt
    have e1 : S_.numel = 1 := by decide
    have e2 : S1x1.numel = 1 := by decide
    omega
  · unfold meanAbs
    show max (Ideal.ofBits .f32 0x3727C5AC#32)
        (Ideal.div (Ideal.hostReduceAdd reducesTo_S4096x4096_S_d0_1 (Host.absf w) (Ideal.ofBits .f32 0x00000000#32) ix0)
          (Ideal.ofBits .f32 0x4B800000#32))
      = max eps (Ideal.div (fzero + ∑ i : Wt.Idx, absE (w i)) count)
    rw [Ideal.hostReduceAdd_total reducesTo_S4096x4096_S_d0_1 (fun b => b.elim0)]
    rfl

/-! ## The result -/

/-- The program's result term is the layer's result. -/
theorem kernelValue_eq (x : FVec Ideal S4x2048x4096 .f32) (w : FVec Ideal S4096x4096 .f32) :
    kernelValue x w = result x w := by
  funext i
  obtain ⟨b, s, o, rfl⟩ : ∃ (b : Fin 4) (s : Fin 2048) (o : Fin 4096), i = ix3 b s o := ⟨i 0, i 1, i 2, eq_ix3 i⟩
  unfold kernelValue
  refine (foldRows_apply _ b s o).trans ?_
  show ((∑ k : Fin 4096, quantRow (flatRows x) (ix2 (rowOf b s) k)
        * ternDiv w (meanCell w (ix2 (0 : Fin 1) (0 : Fin 1))) (ix2 o k))
      * invScaleCol (flatRows x) (ix2 (rowOf b s) (0 : Fin 1))) * meanCell w (ix2 (0 : Fin 1) (0 : Fin 1))
    = ((∑ k : Fin 4096, tokQuant x b s k * ternDiv w (meanAbs w) (ix2 o k)) * Ideal.div (tokAmp x b s) qmax) * meanAbs w
  rw [meanCell_apply, invScaleCol_flatRows]
  simp only [quantRow_flatRows]

end Cert.KernelIdeal.Flat

end
-- ==== Proof.Algebra.lean ====
/-
  Scaling after the sum and dequantising before it give the same number once the row amplitude and the weights'
  mean magnitude are positive reals, which they are when every input entry is a real number: then
  `q / (127 / a) = q · (a / 127)`, `W · (1 / μ) = W / μ`, `· / (1 / μ) = · μ`, and a real factor moves across a
  finite sum of reals. The quantised entries and the ternary weights are reals whatever the inputs, being clipped.
-/
import proofs.«100234_j24962349924854_1_alg».proof.Proof.Spec
import Mathlib.Data.EReal.Basic
import Mathlib.Data.EReal.Operations
import Mathlib.Data.EReal.Inv
import Mathlib.Algebra.BigOperators.Ring.Finset
import Mathlib.Tactic.Ring
import Mathlib.Tactic.FieldSimp
import Mathlib.Tactic.Positivity
import Mathlib.Tactic.NormNum

noncomputable section

namespace Cert.TernaryLinear

open Idealize.ShloMosaic Idealize.ShloMosaic.ValueIdx

/-! ## The constants, as the reals their patterns denote -/

private theorem qmax_eq : qmax = ((127 : ℝ) : EReal) := by
  simp [Ideal.ofBits, Ideal.ieee, -EReal.coe_mul]; norm_num

private theorem qmin_eq : qmin = ((-128 : ℝ) : EReal) := by
  simp [Ideal.ofBits, Ideal.ieee, -EReal.coe_mul]; norm_num

private theorem pone_eq : pone = ((1 : ℝ) : EReal) := by
  simp [Ideal.ofBits, Ideal.ieee, -EReal.coe_mul]; norm_num

private theorem mone_eq : mone = ((-1 : ℝ) : EReal) := by
  simp [Ideal.ofBits, Ideal.ieee, -EReal.coe_mul]; norm_num

private theorem count_eq : count = ((16777216 : ℝ) : EReal) := by
  simp [Ideal.ofBits, Ideal.ieee, -EReal.coe_mul]; norm_num

private theorem fzero_eq : fzero = 0 := by
  simp [Ideal.ofBits, Ideal.ieee]

private theorem ninf_eq : ninf = ⊥ := by
  simp [Ideal.ofBits, Ideal.ieee]

/-- The clipping floor is a positive real; its exact value plays no part. -/
private theorem eps_pos_real : ∃ e : ℝ, 0 < e ∧ eps = (e : EReal) := by
  simp [Ideal.ofBits, Ideal.ieee, -EReal.coe_mul]

/-! ## Reals stay reals -/

/-- The coercion of the reals commutes with `max` and `min`, being monotone. -/
private theorem coe_max' (a b : ℝ) : ((max a b : ℝ) : EReal) = max (a : EReal) (b : EReal) :=
  EReal.coe_strictMono.monotone.map_max

private theorem coe_min' (a b : ℝ) : ((min a b : ℝ) : EReal) = min (a : EReal) (b : EReal) :=
  EReal.coe_strictMono.monotone.map_min

/-- A value clipped between two reals is a real, whatever it was: `⊥` clips to the smaller bound, `⊤` to the upper. -/
private theorem exists_real_clip (lo hi : ℝ) (y : EReal) :
    ∃ r : ℝ, min (hi : EReal) (max (lo : EReal) y) = (r : EReal) := by
  induction y using EReal.rec with
  | bot => exact ⟨min hi lo, by rw [max_bot_right, coe_min']⟩
  | coe y => exact ⟨min hi (max lo y), by rw [coe_min', coe_max']⟩
  | top => exact ⟨hi, by rw [max_top_right, min_top_right]⟩

/-- The magnitude of a real is a real. -/
private theorem absE_real {a : EReal} (h : ∃ r : ℝ, a = (r : EReal)) : ∃ r : ℝ, absE a = (r : EReal) := by
  obtain ⟨r, rfl⟩ := h
  exact ⟨max r (-r), by rw [absE, ← EReal.coe_neg, coe_max']⟩

/-- A running maximum of reals started at `⊥` is `⊥` (over nothing) or a real. -/
private theorem fold_max_real {ι : Type*} (s : Finset ι) (f : ι → EReal) (hf : ∀ j, ∃ r : ℝ, f j = (r : EReal)) :
    s.fold max ⊥ f = ⊥ ∨ ∃ r : ℝ, s.fold max ⊥ f = (r : EReal) := by
  classical
  induction s using Finset.induction_on with
  | empty => exact Or.inl Finset.fold_empty
  | insert a s ha ih =>
    rw [Finset.fold_insert ha]
    obtain ⟨r, hr⟩ := hf a
    rcases ih with h | ⟨r', h⟩
    · exact Or.inr ⟨r, by rw [h, hr, max_bot_right]⟩
    · exact Or.inr ⟨max r r', by rw [h, hr, coe_max']⟩

/-- Clipping from below at `ε` makes `⊥` or a real into a positive real. -/
private theorem max_eps_pos_real (y : EReal) (hy : y = ⊥ ∨ ∃ r : ℝ, y = (r : EReal)) :
    ∃ a : ℝ, 0 < a ∧ max eps y = (a : EReal) := by
  obtain ⟨e, he, hee⟩ := eps_pos_real
  rcases hy with rfl | ⟨r, rfl⟩
  · exact ⟨e, he, by rw [max_bot_right, hee]⟩
  · exact ⟨max e r, lt_max_of_lt_left he, by rw [hee, coe_max']⟩

/-- A finite sum of reals is the real sum. -/
private theorem sum_real {ι : Type*} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The quotient of two reals, the divisor not zero, is the real quotient. -/
private theorem div_coe_coe (x : ℝ) {y : ℝ} (hy : y ≠ 0) :
    Ideal.div (x : EReal) (y : EReal) = ((x / y : ℝ) : EReal) := by
  rw [Ideal.div_coe hy, ← EReal.coe_mul, mul_one_div]

/-! ## The two scales are positive reals -/

/-- A token's clipped amplitude is a positive real. -/
private theorem tokAmp_pos_real (x : Tok.Idx → EReal) (hx : ∀ i, ∃ r : ℝ, x i = (r : EReal)) (b : Fin 4)
    (s : Fin 2048) : ∃ a : ℝ, 0 < a ∧ tokAmp x b s = (a : EReal) := by
  rw [tokAmp, ninf_eq]
  exact max_eps_pos_real _ (fold_max_real _ _ (fun j => absE_real (hx _)))

/-- The weights' clipped mean magnitude is a positive real. -/
private theorem meanAbs_pos_real (W : Wt.Idx → EReal) (hW : ∀ i, ∃ r : ℝ, W i = (r : EReal)) :
    ∃ m : ℝ, 0 < m ∧ meanAbs W = (m : EReal) := by
  have h : ∀ i, ∃ r : ℝ, absE (W i) = (r : EReal) := fun i => absE_real (hW i)
  choose g hg using h
  rw [meanAbs, fzero_eq, zero_add, count_eq, Ideal.div_coe (by norm_num)]
  simp only [hg]
  rw [sum_real, ← EReal.coe_mul]
  exact max_eps_pos_real _ (Or.inr ⟨_, rfl⟩)

/-! ## Multiplying by the reciprocal is dividing -/

/-- For a nonzero real `μ`, `W · (1 / μ) = W / μ` entry by entry, so the two ternary weights are one. -/
private theorem ternMul_eq_ternDiv (W : Wt.Idx → EReal) {m : ℝ} (hm : m ≠ 0) :
    ternMul W (m : EReal) = ternDiv W (m : EReal) := by
  have h : Ideal.div pone (m : EReal) = ((1 / m : ℝ) : EReal) := by rw [pone_eq, div_coe_coe _ hm]
  funext i
  simp only [ternMul, ternDiv]
  rw [h, Ideal.div_coe hm]

/-! ## The identity on the reals -/

/-- With every quantity a real and both scales positive, dequantising before the sum is scaling after it. -/
private theorem real_side (q t : Fin 4096 → ℝ) {a m : ℝ} (ha : 0 < a) (hm : 0 < m) :
    Ideal.div (∑ k : Fin 4096, Ideal.div (q k : EReal) (Ideal.div qmax (a : EReal)) * (t k : EReal))
        (Ideal.div pone (m : EReal))
      = ((∑ k : Fin 4096, (q k : EReal) * (t k : EReal)) * Ideal.div (a : EReal) qmax) * (m : EReal) := by
  have hne : (127 / a : ℝ) ≠ 0 := by positivity
  have hne' : (1 / m : ℝ) ≠ 0 := by positivity
  have h127 : Ideal.div qmax (a : EReal) = ((127 / a : ℝ) : EReal) := by rw [qmax_eq, div_coe_coe _ ha.ne']
  have h1m : Ideal.div pone (m : EReal) = ((1 / m : ℝ) : EReal) := by rw [pone_eq, div_coe_coe _ hm.ne']
  have ha127 : Ideal.div (a : EReal) qmax = ((a / 127 : ℝ) : EReal) := by
    rw [qmax_eq, div_coe_coe _ (by norm_num)]
  have hd : ∀ y : ℝ, Ideal.div (y : EReal) ((127 / a : ℝ) : EReal) = ((y / (127 / a) : ℝ) : EReal) :=
    fun y => div_coe_coe y hne
  rw [h127, h1m, ha127]
  simp only [hd, ← EReal.coe_mul]
  rw [sum_real, sum_real, div_coe_coe _ hne', ← EReal.coe_mul, ← EReal.coe_mul]
  congr 1
  have hk : ∀ k, q k / (127 / a) * t k = q k * t k * (a / 127) := fun k => by field_simp
  simp only [hk, ← Finset.sum_mul]
  field_simp

/-! ## The assembly -/

/-- With real inputs the two arrangements of the layer agree. -/
theorem resultDequant_eq_result (x : Tok.Idx → EReal) (W : Wt.Idx → EReal)
    (hx : ∀ i, ∃ r : ℝ, x i = (r : EReal)) (hW : ∀ i, ∃ r : ℝ, W i = (r : EReal)) :
    resultDequant x W = result x W := by
  funext i
  obtain ⟨a, ha, haE⟩ := tokAmp_pos_real x hx (i 0) (i 1)
  obtain ⟨m, hm, hmE⟩ := meanAbs_pos_real W hW
  have hq : ∀ k, ∃ r : ℝ, tokQuant x (i 0) (i 1) k = (r : EReal) := fun k => by
    simp only [tokQuant]; rw [qmax_eq, qmin_eq]; exact exists_real_clip _ _ _
  have ht : ∀ k, ∃ r : ℝ, ternDiv W (m : EReal) (ix2 (i 2) k) = (r : EReal) := fun k => by
    simp only [ternDiv]; rw [pone_eq, mone_eq]; exact exists_real_clip _ _ _
  choose q hq using hq
  choose t ht using ht
  simp only [resultDequant, result]
  rw [hmE, haE, ternMul_eq_ternDiv W hm.ne']
  simp only [hq, ht]
  exact real_side q t ha hm

end Cert.TernaryLinear

end
-- ==== Proof.Finite.lean ====
/-
  The precondition says every input entry has magnitude below +∞; over the extended reals that makes every entry a
  real number.
-/
import proofs.«100234_j24962349924854_1_alg».proof.Defs
import proofs.«100234_j24962349924854_1_alg».proof.Proof.Gen.KernelIdeal
import proofs.«100234_j24962349924854_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.SL.Sem

/-- The word 0x7F800000, read as a binary32 number, is +∞. -/
private theorem inf_word : Ideal.ofBits .f32 0x7F800000#32 = (⊤ : EReal) := by
  simp [Ideal.ofBits, Ideal.ieee]

/-- An extended real whose magnitude `max x (-x)` lies strictly below +∞ is a real number: the magnitude of either
    infinity is +∞ itself. -/
private theorem real_of_abs_lt (x : EReal)
    (hx : Ideal.cmp .olt (max x (-x)) (Ideal.ofBits .f32 0x7F800000#32) = 1#1) : ∃ r : ℝ, x = (r : EReal) := by
  rw [inf_word] at hx
  induction x using EReal.rec with
  | bot => simp [Ideal.cmp] at hx
  | top => simp [Ideal.cmp] at hx
  | coe r => exact ⟨r, rfl⟩

/-- The rank-0 shape has a single index. -/
private instance : Subsingleton Cert.Pre_finite_inputs.S_.Idx := ⟨fun a b => funext fun d => d.elim0⟩

/-- Under the precondition both argument arrays hold real numbers only. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  -- The precondition at its one index: a conjunction of two "all entries" reductions by `and`.
  have h0 := congrFun (h c) ValueIdx.ix0
  dsimp only [Cert.Pre_finite_inputs.fn] at h0
  obtain ⟨ha, hb⟩ := IntOp.andi_eq_one.1 h0
  -- Each reduction being 1 gives the comparison |entry| < +∞ at every index, hence a real entry.
  refine ⟨fun i => real_of_abs_lt _ ?_, fun i => real_of_abs_lt _ ?_⟩
  · exact Host.reduce_andi_all _ _ _ _ _ ha i
  · exact Host.reduce_andi_all _ _ _ _ _ hb i

end Cert.Finite

end
-- ==== Proof.RefStages.lean ====
/-
  The reference program's run, read back stretch by stretch. Its 48 host operations are cut into six stretches; after
  each stretch the buffers a later stretch still reads hold the stage the operation-by-operation reading names
  (`val_<buffer>`), by unfolding that stretch alone: the per-token scale and the rounded product; the dequantised
  activations; the weights' clipped mean magnitude; its reciprocal and the rounded scaled weights; and the
  contraction with its final division. Neither argument array is ever written.
-/
import proofs.«100234_j24962349924854_1_alg».proof.Proof.RefReadGen
import Idealize.ShloMosaic.Lib.StableHlo.Run

noncomputable section

namespace Cert.ReferenceIdeal.RunStages

open Cert.ReferenceIdeal Cert.ReferenceIdeal.Gen Cert.ReferenceIdeal.RunP Cert.ReferenceIdeal.ReadP
open Idealize.ShloMosaic Idealize.ShloMosaic.TcCoe Idealize.SL.Sem Idealize.ShloMosaic.StableHlo

variable {F : FTy → Type} [FloatOps F]

/-- Running one list after another is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The six stretches -/

/-- Operations 0–7 of @main, a called function's operations written with the plain builders. -/
abbrev ops1 : List (HloOp τ sig (Elt F)) :=
  [ unary main_arg0 main_v0 (Host.absf : (⟨S4x2048x4096, .f32⟩ : BufTy).Contents (Elt F) → (⟨S4x2048x4096, .f32⟩ : BufTy).Contents (Elt F)),
    nullary main_cst (constant S_ .f32 0xFF800000#32),
    binary main_v0 main_cst main_v1 ((fun x v => Host.reduce FloatOps.maximumf x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)),
    unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x3727C5AC#32),
    unary main_cst_0 main_call0_v0 (id : (⟨S_, .f32⟩ : BufTy).Contents (Elt F) → (⟨S_, .f32⟩ : BufTy).Contents (Elt F)),
    unary main_call0_v0 main_call0_v1 ((broadcastInDim S4x2048x1 ![] bcast_S_S4x2048x1) : (⟨S_, .f32⟩ : BufTy).Contents (Elt F) → (⟨S4x2048x1, .f32⟩ : BufTy).Contents (Elt F)),
    binary main_call0_v1 main_v2 main_v3 (maximumf : (⟨S4x2048x1, .f32⟩ : BufTy).Contents (Elt F) → (⟨S4x2048x1, .f32⟩ : BufTy).Contents (Elt F) → (⟨S4x2048x1, .f32⟩ : BufTy).Contents (Elt F)) ]

/-- Operations 8–13 of @main, a called function's operations written with the plain builders. -/
abbrev ops2 : List (HloOp τ sig (Elt F)) :=
  [ nullary main_cst_1 (constant S_ .f32 0x42FE0000#32),
    unary main_cst_1 main_v4 (broadcastInDim S4x2048x1 ![] bcast_S_S4x2048x1 : (⟨S_, .f32⟩ : BufTy).Contents (Elt F) → (⟨S4x2048x1, .f32⟩ : BufTy).Contents (Elt F)),
    binary main_v4 main_v3 main_v5 (Host.divf : (⟨S4x2048x1, .f32⟩ : BufTy).Contents (Elt F) → (⟨S4x2048x1, .f32⟩ : BufTy).Contents (Elt F) → (⟨S4x2048x1, .f32⟩ : BufTy).Contents (Elt F)),
    unary main_v5 main_v6 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_arg0 main_v6 main_v7 (mulf : (⟨S4x2048x4096, .f32⟩ : BufTy).Contents (Elt F) → (⟨S4x2048x4096, .f32⟩ : BufTy).Contents (Elt F) → (⟨S4x2048x4096, .f32⟩ : BufTy).Contents (Elt F)),
    unary main_v7 main_v8 (Host.roundeven : (⟨S4x2048x4096, .f32⟩ : BufTy).Contents (Elt F) → (⟨S4x2048x4096, .f32⟩ : BufTy).Contents (Elt F)) ]

/-- Operations 14–23 of @main, a called function's operations written with the plain builders. -/
abbrev ops3 : List (HloOp τ sig (Elt F)) :=
  [ nullary main_cst_2 (constant S_ .f32 0xC3000000#32),
    nullary main_cst_3 (constant S_ .f32 0x42FE0000#32),
    unary main_cst_2 main_call2_v0 (id : (⟨S_, .f32⟩ : BufTy).Contents (Elt F) → (⟨S_, .f32⟩ : BufTy).Contents (Elt F)),
    unary main_call2_v0 main_call2_v1 ((broadcastInDim S4x2048x4096 ![] bcast_S_S4x2048x4096) : (⟨S_, .f32⟩ : BufTy).Contents (Elt F) → (⟨S4x2048x4096, .f32⟩ : BufTy).Contents (Elt F)),
    binary main_call2_v1 main_v8 main_call2_v2 (maximumf : (⟨S4x2048x4096, .f32⟩ : BufTy).Contents (Elt F) → (⟨S4x2048x4096, .f32⟩ : BufTy).Contents (Elt F) → (⟨S4x2048x4096, .f32⟩ : BufTy).Contents (Elt F)),
    unary main_cst_3 main_call2_v3 (id : (⟨S_, .f32⟩ : BufTy).Contents (Elt F) → (⟨S_, .f32⟩ : BufTy).Contents (Elt F)),
    unary main_call2_v3 main_call2_v4 ((broadcastInDim S4x2048x4096 ![] bcast_S_S4x2048x4096) : (⟨S_, .f32⟩ : BufTy).Contents (Elt F) → (⟨S4x2048x4096, .f32⟩ : BufTy).Contents (Elt F)),
    binary main_call2_v4 main_call2_v2 main_v9 (minimumf : (⟨S4x2048x4096, .f32⟩ : BufTy).Contents (Elt F) → (⟨S4x2048x4096, .f32⟩ : BufTy).Contents (Elt F) → (⟨S4x2048x4096, .f32⟩ : BufTy).Contents (Elt F)),
    unary main_v5 main_v10 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v9 main_v10 main_v11 (Host.divf : (⟨S4x2048x4096, .f32⟩ : BufTy).Contents (Elt F) → (⟨S4x2048x4096, .f32⟩ : BufTy).Contents (Elt F) → (⟨S4x2048x4096, .f32⟩ : BufTy).Contents (Elt F)) ]

/-- Operations 24–31 of @main, a called function's operations written with the plain builders. -/
abbrev ops4 : List (HloOp τ sig (Elt F)) :=
  [ unary main_arg1 main_v12 (Host.absf : (⟨S4096x4096, .f32⟩ : BufTy).Contents (Elt F) → (⟨S4096x4096, .f32⟩ : BufTy).Contents (Elt F)),
    nullary main_cst_4 (constant S_ .f32 0x00000000#32),
    binary main_v12 main_cst_4 main_v13 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_5 (constant S_ .f32 0x4B800000#32),
    binary main_v13 main_cst_5 main_v14 (Host.divf : (⟨S_, .f32⟩ : BufTy).Contents (Elt F) → (⟨S_, .f32⟩ : BufTy).Contents (Elt F) → (⟨S_, .f32⟩ : BufTy).Contents (Elt F)),
    nullary main_cst_6 (constant S_ .f32 0x3727C5AC#32),
    unary main_cst_6 main_call3_v0 (id : (⟨S_, .f32⟩ : BufTy).Contents (Elt F) → (⟨S_, .f32⟩ : BufTy).Contents (Elt F)),
    binary main_call3_v0 main_v14 main_v15 (maximumf : (⟨S_, .f32⟩ : BufTy).Contents (Elt F) → (⟨S_, .f32⟩ : BufTy).Contents (Elt F) → (⟨S_, .f32⟩ : BufTy).Contents (Elt F)) ]

/-- Operations 32–36 of @main, a called function's operations written with the plain builders. -/
abbrev ops5 : List (HloOp τ sig (Elt F)) :=
  [ nullary main_cst_7 (constant S_ .f32 0x3F800000#32),
    binary main_cst_7 main_v15 main_v16 (Host.divf : (⟨S_, .f32⟩ : BufTy).Contents (Elt F) → (⟨S_, .f32⟩ : BufTy).Contents (Elt F) → (⟨S_, .f32⟩ : BufTy).Contents (Elt F)),
    unary main_v16 main_v17 (broadcastInDim S4096x4096 ![] bcast_S_S4096x4096 : (⟨S_, .f32⟩ : BufTy).Contents (Elt F) → (⟨S4096x4096, .f32⟩ : BufTy).Contents (Elt F)),
    binary main_arg1 main_v17 main_v18 (mulf : (⟨S4096x4096, .f32⟩ : BufTy).Contents (Elt F) → (⟨S4096x4096, .f32⟩ : BufTy).Contents (Elt F) → (⟨S4096x4096, .f32⟩ : BufTy).Contents (Elt F)),
    unary main_v18 main_v19 (Host.roundeven : (⟨S4096x4096, .f32⟩ : BufTy).Contents (Elt F) → (⟨S4096x4096, .f32⟩ : BufTy).Contents (Elt F)) ]

/-- Operations 37–47 of @main, a called function's operations written with the plain builders. -/
abbrev ops6 : List (HloOp τ sig (Elt F)) :=
  [ nullary main_cst_8 (constant S_ .f32 0xBF800000#32),
    nullary main_cst_9 (constant S_ .f32 0x3F800000#32),
    unary main_cst_8 main_call5_v0 (id : (⟨S_, .f32⟩ : BufTy).Contents (Elt F) → (⟨S_, .f32⟩ : BufTy).Contents (Elt F)),
    unary main_call5_v0 main_call5_v1 ((broadcastInDim S4096x4096 ![] bcast_S_S4096x4096) : (⟨S_, .f32⟩ : BufTy).Contents (Elt F) → (⟨S4096x4096, .f32⟩ : BufTy).Contents (Elt F)),
    binary main_call5_v1 main_v19 main_call5_v2 (maximumf : (⟨S4096x4096, .f32⟩ : BufTy).Contents (Elt F) → (⟨S4096x4096, .f32⟩ : BufTy).Contents (Elt F) → (⟨S4096x4096, .f32⟩ : BufTy).Contents (Elt F)),
    unary main_cst_9 main_call5_v3 (id : (⟨S_, .f32⟩ : BufTy).Contents (Elt F) → (⟨S_, .f32⟩ : BufTy).Contents (Elt F)),
    unary main_call5_v3 main_call5_v4 ((broadcastInDim S4096x4096 ![] bcast_S_S4096x4096) : (⟨S_, .f32⟩ : BufTy).Contents (Elt F) → (⟨S4096x4096, .f32⟩ : BufTy).Contents (Elt F)),
    binary main_call5_v4 main_call5_v2 main_v20 (minimumf : (⟨S4096x4096, .f32⟩ : BufTy).Contents (Elt F) → (⟨S4096x4096, .f32⟩ : BufTy).Contents (Elt F) → (⟨S4096x4096, .f32⟩ : BufTy).Contents (Elt F)),
    binary main_v11 main_v20 main_v21 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_v16 main_v22 (broadcastInDim S4x2048x4096 ![] bcast_S_S4x2048x4096 : (⟨S_, .f32⟩ : BufTy).Contents (Elt F) → (⟨S4x2048x4096, .f32⟩ : BufTy).Contents (Elt F)),
    binary main_v21 main_v22 main_v23 (Host.divf : (⟨S4x2048x4096, .f32⟩ : BufTy).Contents (Elt F) → (⟨S4x2048x4096, .f32⟩ : BufTy).Contents (Elt F) → (⟨S4x2048x4096, .f32⟩ : BufTy).Contents (Elt F)) ]

set_option maxRecDepth 8192 in
/-- The program's operations are the six stretches in order: an operation of a called function, which the program
    writes through typed references, is the plain operation on the same buffers (the transport along each
    reference's type equation is the identity). -/
theorem ops_split : (ops : List (HloOp τ sig (Elt F))) = ops1 ++ (ops2 ++ (ops3 ++ (ops4 ++ (ops5 ++ ops6)))) := rfl

variable (m : (ℓ : Loc nD τ sig) → Buf (Elt F) ℓ) (d : Dev nD)

/-! ## The buffer contents after each stretch -/

/-- At launch. -/
def A0 : Valuation τ sig (Elt F) := launchContents m d
def A1 : Valuation τ sig (Elt F) := after ops1 (A0 m d)
def A2 : Valuation τ sig (Elt F) := after ops2 (A1 m d)
def A3 : Valuation τ sig (Elt F) := after ops3 (A2 m d)
def A4 : Valuation τ sig (Elt F) := after ops4 (A3 m d)
def A5 : Valuation τ sig (Elt F) := after ops5 (A4 m d)
def A6 : Valuation τ sig (Elt F) := after ops6 (A5 m d)

/-- The whole run's contents are the last stretch's. -/
theorem after_ops : after ops (launchContents m d) = A6 m d := by
  rw [ops_split, after_app, after_app, after_app, after_app, after_app]
  rfl

theorem A0_x : A0 m d (Proc.devRef .tc main_arg0) = (m ((d.tc : Thread nD τ).loc main_arg0)) := rfl
theorem A0_w : A0 m d (Proc.devRef .tc main_arg1) = (m ((d.tc : Thread nD τ).loc main_arg1)) := rfl

/-! ## Stretch 1: the clipped amplitude of every token -/

theorem A1_x : A1 m d (Proc.devRef .tc main_arg0) = (m ((d.tc : Thread nD τ).loc main_arg0)) := by
  show after ops1 (A0 m d) (Proc.devRef .tc main_arg0) = _
  after_results
  exact A0_x m d
theorem A1_w : A1 m d (Proc.devRef .tc main_arg1) = (m ((d.tc : Thread nD τ).loc main_arg1)) := by
  show after ops1 (A0 m d) (Proc.devRef .tc main_arg1) = _
  after_results
  exact A0_w m d
theorem A1_v3 : A1 m d (Proc.devRef .tc main_v3) = val_main_v3 (m ((d.tc : Thread nD τ).loc main_arg0)) := by
  show after ops1 (A0 m d) (Proc.devRef .tc main_v3) = _
  after_results
  rw [A0_x]
  rfl

/-! ## Stretch 2: the scale 127 / amplitude, and the rounded scaled activations -/

theorem A2_x : A2 m d (Proc.devRef .tc main_arg0) = (m ((d.tc : Thread nD τ).loc main_arg0)) := by
  show after ops2 (A1 m d) (Proc.devRef .tc main_arg0) = _
  after_results
  exact A1_x m d
theorem A2_w : A2 m d (Proc.devRef .tc main_arg1) = (m ((d.tc : Thread nD τ).loc main_arg1)) := by
  show after ops2 (A1 m d) (Proc.devRef .tc main_arg1) = _
  after_results
  exact A1_w m d
theorem A2_v5 : A2 m d (Proc.devRef .tc main_v5) = val_main_v5 (m ((d.tc : Thread nD τ).loc main_arg0)) := by
  show after ops2 (A1 m d) (Proc.devRef .tc main_v5) = _
  after_results
  rw [A1_v3]
  rfl
theorem A2_v8 : A2 m d (Proc.devRef .tc main_v8) = val_main_v8 (m ((d.tc : Thread nD τ).loc main_arg0)) := by
  show after ops2 (A1 m d) (Proc.devRef .tc main_v8) = _
  after_results
  rw [A1_v3, A1_x]
  rfl

/-! ## Stretch 3: clipping to [-128, 127] and dividing the scale back out -/

theorem A3_x : A3 m d (Proc.devRef .tc main_arg0) = (m ((d.tc : Thread nD τ).loc main_arg0)) := by
  show after ops3 (A2 m d) (Proc.devRef .tc main_arg0) = _
  after_results
  exact A2_x m d
theorem A3_w : A3 m d (Proc.devRef .tc main_arg1) = (m ((d.tc : Thread nD τ).loc main_arg1)) := by
  show after ops3 (A2 m d) (Proc.devRef .tc main_arg1) = _
  after_results
  exact A2_w m d
theorem A3_v11 : A3 m d (Proc.devRef .tc main_v11) = val_main_v11 (m ((d.tc : Thread nD τ).loc main_arg0)) := by
  show after ops3 (A2 m d) (Proc.devRef .tc main_v11) = _
  after_results
  rw [A2_v5, A2_v8]
  rfl

/-! ## Stretch 4: the weights' clipped mean magnitude -/

theorem A4_x : A4 m d (Proc.devRef .tc main_arg0) = (m ((d.tc : Thread nD τ).loc main_arg0)) := by
  show after ops4 (A3 m d) (Proc.devRef .tc main_arg0) = _
  after_results
  exact A3_x m d
theorem A4_w : A4 m d (Proc.devRef .tc main_arg1) = (m ((d.tc : Thread nD τ).loc main_arg1)) := by
  show after ops4 (A3 m d) (Proc.devRef .tc main_arg1) = _
  after_results
  exact A3_w m d
theorem A4_v11 : A4 m d (Proc.devRef .tc main_v11) = val_main_v11 (m ((d.tc : Thread nD τ).loc main_arg0)) := by
  show after ops4 (A3 m d) (Proc.devRef .tc main_v11) = _
  after_results
  exact A3_v11 m d
theorem A4_v15 : A4 m d (Proc.devRef .tc main_v15) = val_main_v15 (m ((d.tc : Thread nD τ).loc main_arg1)) := by
  show after ops4 (A3 m d) (Proc.devRef .tc main_v15) = _
  after_results
  rw [A3_w]
  rfl

/-! ## Stretch 5: its reciprocal, and the rounded scaled weights -/

theorem A5_x : A5 m d (Proc.devRef .tc main_arg0) = (m ((d.tc : Thread nD τ).loc main_arg0)) := by
  show after ops5 (A4 m d) (Proc.devRef .tc main_arg0) = _
  after_results
  exact A4_x m d
theorem A5_w : A5 m d (Proc.devRef .tc main_arg1) = (m ((d.tc : Thread nD τ).loc main_arg1)) := by
  show after ops5 (A4 m d) (Proc.devRef .tc main_arg1) = _
  after_results
  exact A4_w m d
theorem A5_v11 : A5 m d (Proc.devRef .tc main_v11) = val_main_v11 (m ((d.tc : Thread nD τ).loc main_arg0)) := by
  show after ops5 (A4 m d) (Proc.devRef .tc main_v11) = _
  after_results
  exact A4_v11 m d
theorem A5_v16 : A5 m d (Proc.devRef .tc main_v16) = val_main_v16 (m ((d.tc : Thread nD τ).loc main_arg1)) := by
  show after ops5 (A4 m d) (Proc.devRef .tc main_v16) = _
  after_results
  rw [A4_v15]
  rfl
theorem A5_v19 : A5 m d (Proc.devRef .tc main_v19) = val_main_v19 (m ((d.tc : Thread nD τ).loc main_arg1)) := by
  show after ops5 (A4 m d) (Proc.devRef .tc main_v19) = _
  after_results
  rw [A4_v15, A4_w]
  rfl

/-! ## Stretch 6: the ternary weights, the contraction and the final division -/

theorem A6_x : A6 m d (Proc.devRef .tc main_arg0) = (m ((d.tc : Thread nD τ).loc main_arg0)) := by
  show after ops6 (A5 m d) (Proc.devRef .tc main_arg0) = _
  after_results
  exact A5_x m d
theorem A6_w : A6 m d (Proc.devRef .tc main_arg1) = (m ((d.tc : Thread nD τ).loc main_arg1)) := by
  show after ops6 (A5 m d) (Proc.devRef .tc main_arg1) = _
  after_results
  exact A5_w m d
theorem A6_v23 : A6 m d (Proc.devRef .tc main_v23) = val_main_v23 (m ((d.tc : Thread nD τ).loc main_arg0)) (m ((d.tc : Thread nD τ).loc main_arg1)) := by
  show after ops6 (A5 m d) (Proc.devRef .tc main_v23) = _
  after_results
  rw [A5_v11, A5_v19, A5_v16]
  rfl

/-! ## The run -/

/-- Every weakly fair execution of the reference terminates with its result at the last stage of the two
    arguments, and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
          = val_main_v23 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v23).trans ((congrFun (after_ops m c) _).trans (A6_v23 m c)),
       (h c main_arg0).trans ((congrFun (after_ops m c) _).trans (A6_x m c)),
       (h c main_arg1).trans ((congrFun (after_ops m c) _).trans (A6_w m c))⟩)
    (RunP.run m ρ)

end Cert.ReferenceIdeal.RunStages

end
-- ==== Proof.RefRead.lean ====
/-
  The reference program, read one operation at a time, computes `resultDequant`: per token the clipped amplitude
  (a maximum over the feature axis), the quantised entries divided back by their scale, the ternary weights made by
  multiplying with the reciprocal of the clipped mean magnitude, one contraction over the feature axis, and the
  final division by that reciprocal. No law of arithmetic is used: the two terms are the same operations at each index.
-/
import proofs.«100234_j24962349924854_1_alg».proof.Proof.RefReadGen
import proofs.«100234_j24962349924854_1_alg».proof.Proof.Spec
import Idealize.ShloMosaic.Lib.Pipeline.Value
import Idealize.ShloMosaic.Lib.ValueIdx
import Idealize.ShloMosaic.PureOps.Ideal.Laws

noncomputable section

namespace Cert.ReferenceIdeal.Stages

open Idealize.ShloMosaic Idealize.ShloMosaic.ValueIdx
open Cert.ReferenceIdeal Cert.ReferenceIdeal.ReadP Cert.TernaryLinear

/-! ## Indices -/

private theorem feat_reduces : S4x2048x4096.Reduces [2] S4x2048 := by decide

/-- Over token (b, s), the index whose feature coordinate is k. -/
private theorem lift_eq (b : Fin 4) (s : Fin 2048) (k : Fin 4096) :
    feat_reduces.lift (ix2 b s) k = ix3 b s k :=
  funext fun a => Fin.ext (by match a with | ⟨0, _⟩ => rfl | ⟨1, _⟩ => rfl | ⟨2, _⟩ => rfl)

private theorem idx_v2_eq (b : Fin 4) (s : Fin 2048) : idx_main_v2 (ix3 b s (0 : Fin 1)) = ix2 b s :=
  funext fun a => Fin.ext (by match a with | ⟨0, _⟩ => rfl | ⟨1, _⟩ => rfl)

private theorem idx_v6_eq (b : Fin 4) (s : Fin 2048) (k : Fin 4096) : idx_main_v6 (ix3 b s k) = ix3 b s (0 : Fin 1) :=
  funext fun a => Fin.ext (by match a with | ⟨0, _⟩ => rfl | ⟨1, _⟩ => rfl | ⟨2, _⟩ => rfl)

private theorem idx_v10_eq (b : Fin 4) (s : Fin 2048) (k : Fin 4096) : idx_main_v10 (ix3 b s k) = ix3 b s (0 : Fin 1) :=
  funext fun a => Fin.ext (by match a with | ⟨0, _⟩ => rfl | ⟨1, _⟩ => rfl | ⟨2, _⟩ => rfl)

private theorem lidx_eq (b : Fin 4) (s : Fin 2048) (o k : Fin 4096) : lidx_main_v21 (ix3 b s o) k = ix3 b s k :=
  funext fun a => Fin.ext (by match a with | ⟨0, _⟩ => rfl | ⟨1, _⟩ => rfl | ⟨2, _⟩ => rfl)

private theorem ridx_eq (b : Fin 4) (s : Fin 2048) (o k : Fin 4096) : ridx_main_v21 (ix3 b s o) k = ix2 o k :=
  funext fun a => Fin.ext (by match a with | ⟨0, _⟩ => rfl | ⟨1, _⟩ => rfl)

/-! ## The activations -/

/-- The maximum over the feature axis at token (b, s). -/
private theorem v1_at (x : FVec Ideal S4x2048x4096 .f32) (b : Fin 4) (s : Fin 2048) :
    val_main_v1 (F := Ideal) x (ix2 b s)
      = (Finset.univ : Finset (Fin 4096)).fold max ninf (fun j => absE (x (ix3 b s j))) := by
  unfold val_main_v1
  refine (Host.reduce_eq_fold_single _ _ _ _ feat_reduces _ (ix2 b s)).trans ?_
  refine congrArg (Finset.fold _ _ · _) (funext fun k => ?_)
  exact congrArg (fun i => absE (x i)) (lift_eq b s k)

/-- The scale 127 / a of token (b, s). -/
private theorem v5_at (x : FVec Ideal S4x2048x4096 .f32) (b : Fin 4) (s : Fin 2048) :
    val_main_v5 (F := Ideal) x (ix3 b s (0 : Fin 1)) = Ideal.div qmax (tokAmp x b s) := by
  rw [val_main_v5_apply, val_main_v4_apply, val_main_v3_apply, val_main_call0_v1_apply, val_main_v2_apply,
    idx_v2_eq, v1_at]
  rfl

/-- The quantised entry divided back by its scale. -/
private theorem v11_at (x : FVec Ideal S4x2048x4096 .f32) (b : Fin 4) (s : Fin 2048) (k : Fin 4096) :
    val_main_v11 (F := Ideal) x (ix3 b s k)
      = Ideal.div (tokQuant x b s k) (Ideal.div qmax (tokAmp x b s)) := by
  rw [val_main_v11_apply, val_main_v10_apply, idx_v10_eq, v5_at, val_main_v9_apply, val_main_call2_v4_apply,
    val_main_call2_v2_apply, val_main_call2_v1_apply, val_main_v8_apply, val_main_v7_apply, val_main_v6_apply,
    idx_v6_eq, v5_at]
  rfl

/-! ## The weights -/

/-- The clipped mean magnitude. -/
private theorem v15_at (w : FVec Ideal S4096x4096 .f32) (j : S_.Idx) :
    val_main_v15 (F := Ideal) w j = meanAbs w := by
  rw [val_main_v15_apply, val_main_v14_apply, val_main_v13_apply]
  rfl

/-- Its reciprocal. -/
private theorem v16_at (w : FVec Ideal S4096x4096 .f32) (j : S_.Idx) :
    val_main_v16 (F := Ideal) w j = Ideal.div pone (meanAbs w) := by
  rw [val_main_v16_apply, v15_at]
  rfl

/-- The ternary weights made by multiplying with the reciprocal. -/
private theorem v20_at (w : FVec Ideal S4096x4096 .f32) (i : S4096x4096.Idx) :
    val_main_v20 (F := Ideal) w i = ternMul w (meanAbs w) i := by
  rw [val_main_v20_apply, val_main_call5_v4_apply, val_main_call5_v2_apply, val_main_call5_v1_apply,
    val_main_v19_apply, val_main_v18_apply, val_main_v17_apply, v16_at]
  rfl

/-- The reference's last stage is the dequantise-first arrangement of the layer. -/
theorem reference_eq (x : FVec Ideal S4x2048x4096 .f32) (w : FVec Ideal S4096x4096 .f32) :
    val_main_v23 (F := Ideal) x w = resultDequant x w := by
  funext i
  obtain ⟨b, s, o, rfl⟩ : ∃ b s o, i = ix3 b s o := ⟨i 0, i 1, i 2, eq_ix3 i⟩
  rw [val_main_v23_apply, val_main_v21_apply, val_main_v22_apply, v16_at]
  simp only [lidx_eq, ridx_eq, v11_at, v20_at]
  rfl

end Cert.ReferenceIdeal.Stages

end
-- ==== Proof.lean ====
/-
  A ternary-weight linear layer with per-token 8-bit activation quantisation, computed by two tiled passes, against
  its plain array-language reference, over the extended reals.

  Both programs take activations `x` of shape [4, 2048, 4096] and weights `W` of shape [4096, 4096]. For a token
  (b, s) let `a = max ε (max_j |x_j|)`, `q_j = clip (round (x_j · (127 / a))) (-128) 127`; let
  `μ = max ε ((Σ |W|) / 2²⁴)`. The tiled program flattens the tokens to 8192 rows, quantises them in a first pass
  (256 rows a step, keeping `a / 127` per row), computes `μ` once, and in a second pass (512 rows × 256 outputs a step,
  the whole feature axis contracted at once) writes `((Σ_k q_k · clip (round (W_{o,k} / μ)) (-1) 1) · (a / 127)) · μ`.
  The reference dequantises first: `(Σ_k (q_k / (127 / a)) · clip (round (W_{o,k} · (1 / μ))) (-1) 1) / (1 / μ)`.

  The two agree because, the inputs being finite, `a` and `μ` are positive real numbers: then `W · (1 / μ) = W / μ`,
  `q / (127 / a) = q · (a / 127)`, dividing by `1 / μ` is multiplying by `μ`, and the real factor `a / 127` moves out
  of the finite sum of real terms (the quantised entries and ternary weights are real whatever the inputs, being
  clipped). That finiteness is exactly the precondition, and it is where the precondition is used.

  How the pieces fit: the tiled program's run names its result buffer; that buffer is traced back through the two
  passes (each pass's output arrays as whole-array functions of its inputs) to one term of `x` and `W`, which read
  index by index is the formula above; the reference's run is read stretch by stretch to the dequantise-first formula;
  the algebra joins them. The idealised tiled program is the tiled program's own text (no rewrite was applied), and
  each program's frame is its run with the result dropped.
-/
import proofs.«100234_j24962349924854_1_alg».proof.Defs
import proofs.«100234_j24962349924854_1_alg».proof.Proof.Gen.Kernel
import proofs.«100234_j24962349924854_1_alg».proof.Proof.Gen.Kernel.Frame
import proofs.«100234_j24962349924854_1_alg».proof.Proof.Gen.KernelIdeal
import proofs.«100234_j24962349924854_1_alg».proof.Proof.Gen.KernelIdeal.Frame
import proofs.«100234_j24962349924854_1_alg».proof.Proof.Gen.ReferenceIdeal
import proofs.«100234_j24962349924854_1_alg».proof.Proof.Gen.Pre_finite_inputs
import proofs.«100234_j24962349924854_1_alg».proof.Proof.KernelRun
import proofs.«100234_j24962349924854_1_alg».proof.Proof.Region0
import proofs.«100234_j24962349924854_1_alg».proof.Proof.Region1
import proofs.«100234_j24962349924854_1_alg».proof.Proof.Glue
import proofs.«100234_j24962349924854_1_alg».proof.Proof.Layout
import proofs.«100234_j24962349924854_1_alg».proof.Proof.Algebra
import proofs.«100234_j24962349924854_1_alg».proof.Proof.Finite
import proofs.«100234_j24962349924854_1_alg».proof.Proof.RefStages
import proofs.«100234_j24962349924854_1_alg».proof.Proof.RefRead
import Idealize.ShloMosaic.Adequacy
import Idealize.ShloMosaic.Init

noncomputable section

namespace Cert.Proof

open Idealize.ShloMosaic Idealize.SL.Sem

/-- The tiled program as printed runs and leaves its arguments alone. -/
theorem frame_tiled : Cert.frame_Kernel := fun m ρ _ => Cert.Kernel.Gen.frame m ρ

/-- So does its reading over the extended reals. -/
theorem frame_tiled_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2)
    (Cert.ReferenceIdeal.RunStages.run (F := Ideal) m ρ)

/-- From memories agreeing on `x` and `W`, finite by the precondition, both programs end with the layer's result. -/
theorem algebraic : Cert.algebraic_KernelIdeal_ReferenceIdeal := by
  intro m ρ m' ρ' hpre hagree
  refine ⟨fun c => Cert.TernaryLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · -- the tiled program: its result buffer holds the program's term, which index by index is the result
    refine (θ_run Cert.KernelIdeal.defs _ _).mono (fun r h c => ⟨(h c).1.trans ?_, (h c).2⟩)
      (Cert.KernelIdeal.RunValue.run_result (F := Ideal) m ρ)
    rw [Cert.KernelIdeal.Trace.result_buffer m ρ
        (Cert.KernelIdeal.Quantise.quant_array (Cert.KernelIdeal.Gen.V1 m ρ))
        (Cert.KernelIdeal.Quantise.invScale_array (Cert.KernelIdeal.Gen.V1 m ρ))
        (Cert.KernelIdeal.Product.product_array (Cert.KernelIdeal.Gen.V5 m ρ)) c,
      Cert.KernelIdeal.Flat.kernelValue_eq]
  · -- the reference: its last stage is the dequantise-first formula, equal to the result on real inputs
    refine (θ_run Cert.ReferenceIdeal.defs _ _).mono (fun r h c => ⟨(h c).1.trans ?_, (h c).2⟩)
      (Cert.ReferenceIdeal.RunStages.run (F := Ideal) m' ρ')
    rw [(hagree c).1, (hagree c).2, Cert.ReferenceIdeal.Stages.reference_eq]
    exact Cert.TernaryLinear.resultDequant_eq_result _ _
      (Cert.Finite.real_of_pre m hpre c).1 (Cert.Finite.real_of_pre m hpre c).2

theorem claim : Cert.Claim :=
  ⟨Cert.Kernel.Gen.facts, Cert.KernelIdeal.Gen.facts, Cert.ReferenceIdeal.Gen.facts, Cert.Pre_finite_inputs.Gen.facts,
    frame_tiled, frame_tiled_ideal, frame_reference, trivial, algebraic⟩

end Cert.Proof

end
